-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x3 : Shape := ⟨3, ![4, 16384, 3]⟩
abbrev S4x16384x64 : Shape := ⟨3, ![4, 16384, 64]⟩
abbrev S4x16384x16 : Shape := ⟨3, ![4, 16384, 16]⟩
abbrev S4x64 : Shape := ⟨2, ![4, 64]⟩
abbrev S64 : Shape := ⟨1, ![64]⟩
abbrev S_ : Shape := ⟨0, ![]⟩

class Facts : Prop where
  bcast_S_S4x16384x3 : S_.BroadcastsInDim S4x16384x3 (![] : Fin 0 → Fin S4x16384x3.rank)
  reducesTo_S4x16384x3_S_d0_1_2 : S4x16384x3.ReducesTo [0, 1, 2] S_
  h_S_ : 0 < S_.numel
  bcast_S_S4x16384x64 : S_.BroadcastsInDim S4x16384x64 (![] : Fin 0 → Fin S4x16384x64.rank)
  reducesTo_S4x16384x64_S_d0_1_2 : S4x16384x64.ReducesTo [0, 1, 2] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S4x16384x16 : S_.BroadcastsInDim S4x16384x16 (![] : Fin 0 → Fin S4x16384x16.rank)
  reducesTo_S4x16384x16_S_d0_1_2 : S4x16384x16.ReducesTo [0, 1, 2] S_

variable [Facts]

def fn_part1 {F : FTy → Type} [FloatOps F] (main_arg2 : IVec S4x16384x16 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S4x16384x16 32 := broadcastInDim S4x16384x16 ![] bcast_S_S4x16384x16 main_c_6
  let main_v20 : IVec S4x16384x16 1 := cmpi .sge main_arg2 main_v19
  let main_c_7 : IVec S_ 1 := constantI S_ 1 1#1
  let main_v21 : IVec S_ 1 := (fun x v => Host.reduce IntOp.andi x v reducesTo_S4x16384x16_S_d0_1_2 h_S_) main_v20 main_c_7
  let main_v22 : IVec S_ 1 := andi main_v18 main_v21
  let main_c_8 : IVec S_ 32 := constantI S_ 32 16384#32
  let main_v23 : IVec S4x16384x16 32 := broadcastInDim S4x16384x16 ![] bcast_S_S4x16384x16 main_c_8
  let main_v24 : IVec S4x16384x16 1 := cmpi .slt main_arg2 main_v23
  let main_c_9 : IVec S_ 1 := constantI S_ 1 1#1
  let main_v25 : IVec S_ 1 := (fun x v => Host.reduce IntOp.andi x v reducesTo_S4x16384x16_S_d0_1_2 h_S_) main_v24 main_c_9
  let main_v26 : IVec S_ 1 := andi main_v22 main_v25
  main_v26

def fn {F : FTy → Type} [FloatOps F] (main_arg0 : FVec F S4x16384x3 .f32) (main_arg1 : FVec F S4x16384x64 .f32) (main_arg2 : IVec S4x16384x16 32) (main_arg3 : FVec F S4x64 .f32) (main_arg4 : FVec F S64 .f32) : IVec S_ 1 :=
  let main_v0 : FVec F S4x16384x3 .f32 := Host.absf main_arg0
  let main_cst : FVec F S_ .f32 := constant S_ .f32 0x7F800000#32
  let main_v1 : FVec F S4x16384x3 .f32 := broadcastInDim S4x16384x3 ![] bcast_S_S4x16384x3 main_cst
  let main_v2 : IVec S4x16384x3 1 := cmpf .olt main_v0 main_v1
  let main_c : IVec S_ 1 := constantI S_ 1 1#1
  let main_v3 : IVec S_ 1 := (fun x v => Host.reduce IntOp.andi x v reducesTo_S4x16384x3_S_d0_1_2 h_S_) main_v2 main_c
  let main_v4 : FVec F S4x16384x64 .f32 := Host.absf main_arg1
  let main_cst_0 : FVec F S_ .f32 := constant S_ .f32 0x7F800000#32
  let main_v5 : FVec F S4x16384x64 .f32 := broadcastInDim S4x16384x64 ![] bcast_S_S4x16384x64 main_cst_0
  let main_v6 : IVec S4x16384x64 1 := cmpf .olt main_v4 main_v5
  let main_c_1 : IVec S_ 1 := constantI S_ 1 1#1
  let main_v7 : IVec S_ 1 := (fun x v => Host.reduce IntOp.andi x v reducesTo_S4x16384x64_S_d0_1_2 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_v13 main_v16
-- ==== Kernel.lean ====
abbrev S4x16384x3 : Shape := ⟨3, ![4, 16384, 3]⟩
abbrev S4x16384x64 : Shape := ⟨3, ![4, 16384, 64]⟩
abbrev S4x16384x16 : Shape := ⟨3, ![4, 16384, 16]⟩
abbrev S4x64 : Shape := ⟨2, ![4, 64]⟩
abbrev S64 : Shape := ⟨1, ![64]⟩
abbrev S4x16384x67 : Shape := ⟨3, ![4, 16384, 67]⟩
abbrev S_ : Shape := ⟨0, ![]⟩
abbrev S4x16384x128 : Shape := ⟨3, ![4, 16384, 128]⟩
abbrev S1x128x3 : Shape := ⟨3, ![1, 128, 3]⟩
abbrev S1x16384x128 : Shape := ⟨3, ![1, 16384, 128]⟩
abbrev S1x128x16 : Shape := ⟨3, ![1, 128, 16]⟩
abbrev S1x128x128 : Shape := ⟨3, ![1, 128, 128]⟩
abbrev S2048x128 : Shape := ⟨2, ![2048, 128]⟩
abbrev S128x16 : Shape := ⟨2, ![128, 16]⟩
abbrev S1x1x1024 : Shape := ⟨3, ![1, 1, 1024]⟩
abbrev S128x16x1 : Shape := ⟨3, ![128, 16, 1]⟩
abbrev S128x16x1024 : Shape := ⟨3, ![128, 16, 1024]⟩
abbrev S2048x1024 : Shape := ⟨2, ![2048, 1024]⟩
abbrev S1x1024x128 : Shape := ⟨3, ![1, 1024, 128]⟩
abbrev S1024x128 : Shape := ⟨2, ![1024, 128]⟩
abbrev S128x16x128 : Shape := ⟨3, ![128, 16, 128]⟩
abbrev S128x16x3 : Shape := ⟨3, ![128, 16, 3]⟩
abbrev S128x16x64 : Shape := ⟨3, ![128, 16, 64]⟩
abbrev S128x3 : Shape := ⟨2, ![128, 3]⟩
abbrev S128x1x3 : Shape := ⟨3, ![128, 1, 3]⟩
abbrev S128x16x4 : Shape := ⟨3, ![128, 16, 4]⟩
abbrev S2048x4 : Shape := ⟨2, ![2048, 4]⟩
abbrev S2048x64 : Shape := ⟨2, ![2048, 64]⟩
abbrev S1x64 : Shape := ⟨2, ![1, 64]⟩
abbrev S128x128 : Shape := ⟨2, ![128, 128]⟩

abbrev nBuf : Space → Nat
  | .hbm => 14
  | .vmem => 13
  | .smem => 0
  | _ => 0

abbrev bufTy : (tb : Table) → Fin (tcTables nBuf tb) → BufTy
  | .hbm, ⟨0, _⟩ => ⟨S4x16384x3, .f32⟩
  | .hbm, ⟨1, _⟩ => ⟨S4x16384x64, .f32⟩
  | .hbm, ⟨2, _⟩ => ⟨S4x16384x16, .i32⟩
  | .hbm, ⟨3, _⟩ => ⟨S4x64, .f32⟩
  | .hbm, ⟨4, _⟩ => ⟨S64, .f32⟩
  | .hbm, ⟨5, _⟩ => ⟨S4x16384x67, .f32⟩
  | .hbm, ⟨6, _⟩ => ⟨S_, .i32⟩
  | .hbm, ⟨7, _⟩ => ⟨S_, .f32⟩
  | .hbm, ⟨8, _⟩ => ⟨S4x16384x128, .f32⟩
  | .hbm, ⟨9, _⟩ => ⟨S4x16384x128, .bf16⟩
  | .hbm, ⟨10, _⟩ => ⟨S4x16384x128, .f32⟩
  | .hbm, ⟨11, _⟩ => ⟨S4x16384x128, .f32⟩
  | .hbm, ⟨12, _⟩ => ⟨S4x16384x128, .bf16⟩
  | .hbm, ⟨13, _⟩ => ⟨S4x16384x128, .f32⟩
  | .local _ .vmem, ⟨0, _⟩ => ⟨S1x128x3, .f32⟩
  | .local _ .vmem, ⟨1, _⟩ => ⟨S1x128x3, .f32⟩
  | .local _ .vmem, ⟨2, _⟩ => ⟨S1x16384x128, .bf16⟩
  | .local _ .vmem, ⟨3, _⟩ => ⟨S1x16384x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x128x16, .i32⟩
  | .local _ .vmem, ⟨7, _⟩ => ⟨S1x128x16, .i32⟩
  | .local _ .vmem, ⟨8, _⟩ => ⟨S4x64, .f32⟩
  | .local _ .vmem, ⟨9, _⟩ => ⟨S64, .f32⟩
  | .local _ .vmem, ⟨10, _⟩ => ⟨S1x128x128, .f32⟩
  | .local _ .vmem, ⟨11, _⟩ => ⟨S1x128x128, .f32⟩
  | .local _ .vmem, ⟨12, _⟩ => ⟨S2048x128, .f32⟩
  | _, _ => ⟨S4x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 128], ![false, false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32_23 : BitVec 32 := 0#32
  let c0_i32 : BitVec 32 := 0#32
  let c1_i32 : BitVec 32 := 1#32
  let arg10 : BitVec 32 := Scf.iv c0_i32 c1_i32 k0_t1
  let c1_i32_22 : BitVec 32 := 1#32
  let v44 : BitVec 32 := Scalar.muli arg10 c1_i32_22
  let v45 : BitVec 32 := Scalar.addi c0_i32_23 v44
  let c1024_i32 : BitVec 32 := 1024#32
  let v46 : BitVec 32 := Scalar.muli v45 c1024_i32
  v46
def k0_off1 (k0_t1 : Fin k0_t1_loop.trips) : Fin 3 → Nat :=
  let c0_24 : Index := 0#32
  let c0_i32_23 : BitVec 32 := 0#32
  let c0_i32 : BitVec 32 := 0#32
  let c1_i32 : BitVec 32 := 1#32
  let arg10 : BitVec 32 := Scf.iv c0_i32 c1_i32 k0_t1
  let c1_i32_22 : BitVec 32 := 1#32
  let v44 : BitVec 32 := Scalar.muli arg10 c1_i32_22
  let v45 : BitVec 32 := Scalar.addi c0_i32_23 v44
  let c1024_i32 : BitVec 32 := 1024#32
  let v46 : BitVec 32 := Scalar.muli v45 c1024_i32
  let v47 : BitVec 32 := v46
  let v59 : Index := Scalar.indexCast v47
  let c0_25 : Index := 0#32
  ![0, v59.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  concatenates_S4x16384x3_S4x16384x64_S4x16384x67_d2 : Shape.Concatenates [S4x16384x3, S4x16384x64] S4x16384x67 2
  pads_S4x16384x67_S4x16384x128_000_000_0610 : S4x16384x67.Pads (![0, 0, 0] : Fin 3 → Nat) ![0, 0, 61] ![0, 0, 0] S4x16384x128
  h_S_ : 0 < S_.numel
  bitsLt_bf16_f32 : FTy.bits .bf16 < FTy.bits .f32
  inb_S1x128x16_S1x128x16_0_0_0 : ∀ a, (![0, 0, 0] : Fin 3 → Nat) a + S1x128x16.size a ≤ S1x128x16.size a
  h_S1x128x16 : 0 < S1x128x16.numel
  shapeCasts_S1x128x16_S128x16 : S1x128x16.ShapeCasts S128x16
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S1x1x1024_d2_w32 : S1x1x1024.Iotas .tc 32 [2]
  shapeCasts_S128x16_S128x16x1 : S128x16.ShapeCasts S128x16x1
  broadcasts_S128x16x1_S128x16x1024 : S128x16x1.Broadcasts S128x16x1024
  broadcasts_S1x1x1024_S128x16x1024 : S1x1x1024.Broadcasts S128x16x1024
  natLt_1_32 : 1 < 32
  shapeCasts_S128x16x1024_S2048x1024 : S128x16x1024.ShapeCasts S2048x1024
  h_S1x1024x128 : 0 < S1x1024x128.numel
  shapeCasts_S1x1024x128_S1024x128 : S1x1024x128.ShapeCasts S1024x128
  shapeCasts_S2048x128_S128x16x128 : S2048x128.ShapeCasts S128x16x128
  slices_S128x16x128_o0_0_0_S128x16x3 : S128x16x128.Slices ![0, 0, 0] S128x16x3
  slices_S128x16x128_o0_0_3_S128x16x64 : S128x16x128.Slices ![0, 0, 3] S128x16x64
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  shapeCasts_S128x3_S128x1x3 : S128x3.ShapeCasts S128x1x3
  broadcasts_S128x1x3_S128x16x3 : S128x1x3.Broadcasts S128x16x3
  reduces_S128x16x3_S128x16 : S128x16x3.Reduces [2] S128x16
  concatenates_S128x16x3_S128x16x1_S128x16x4_d2 : Shape.Concatenates [S128x16x3, S128x16x1] S128x16x4 2
  shapeCasts_S128x16x4_S2048x4 : S128x16x4.ShapeCasts S2048x4
  inb_S4x64_S4x64_0_0 : ∀ a, (![0, 0] : Fin 2 → Nat) a + S4x64.size a ≤ S4x64.size a
  h_S4x64 : 0 < S4x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  shapeCasts_S128x16x64_S2048x64 : S128x16x64.ShapeCasts S2048x64
  concatenates_S2048x64_S2048x64_S2048x128_d1 : Shape.Concatenates [S2048x64, S2048x64] S2048x128 1
  reduces_S128x16x128_S128x128 : S128x16x128.Reduces [1] S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S2048x1024_S1024x128_S2048x128_1_0_0_1_n_n_wf : DotDims.WF S2048x1024 S1024x128 S2048x128 [1] [0] [0] [1] [] []
  dot_S2048x4_S4x64_S2048x64_1_0_0_1_n_n_wf : DotDims.WF S2048x4 S4x64 S2048x64 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024x128.size a ≤ S1x16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3.size a ≤ S4x16384x3.size a
  hwx0_0 : ∀ i : grid0.Coords, EltTy.bits .f32 = 32 ∨ (Rect.block (s := S4x16384x3) S1x128x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384x128.size a ≤ S4x16384x128.size a
  hwx0_1 : ∀ i : grid0.Coords, EltTy.bits .bf16 = 32 ∨ (Rect.block (s := S4x16384x128) S1x16384x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384x128.size a ≤ S4x16384x128.size a
  hwx0_2 : ∀ i : grid0.Coords, EltTy.bits .bf16 = 32 ∨ (Rect.block (s := S4x16384x128) S1x16384x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x16.size a ≤ S4x16384x16.size a
  hwx0_3 : ∀ i : grid0.Coords, EltTy.bits .i32 = 32 ∨ (Rect.block (s := S4x16384x16) S1x128x16.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64.size a ≤ S4x64.size a
  hwx0_4 : ∀ i : grid0.Coords, EltTy.bits .f32 = 32 ∨ (Rect.block (s := S4x64) S4x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x128.size a ≤ S4x16384x128.size a
  hwx0_6 : ∀ i : grid0.Coords, EltTy.bits .f32 = 32 ∨ (Rect.block (s := S4x16384x128) S1x128x128.size (cc0_transform_6 i) (hinb0_6 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x4_S4x64_S2048x64_1_0_0_1_n_n : DotDims S2048x4 S4x64 S2048x64 where
  lhsContracting := [1]
  rhsContracting := [0]
  lhsNonContracting := [0]
  rhsNonContracting := [1]
  lhsBatch := []
  rhsBatch := []
  wf := dot_S2048x4_S4x64_S2048x64_1_0_0_1_n_n_wf

abbrev win0_0 : Pipeline.Window sig grid0 :=
  Pipeline.Window.ofSpec (Memref.whole main_arg0) S1x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x16384x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x128x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x16384x3 : Shape := ⟨3, ![4, 16384, 3]⟩
abbrev S4x16384x64 : Shape := ⟨3, ![4, 16384, 64]⟩
abbrev S4x16384x16 : Shape := ⟨3, ![4, 16384, 16]⟩
abbrev S4x64 : Shape := ⟨2, ![4, 64]⟩
abbrev S64 : Shape := ⟨1, ![64]⟩
abbrev S_ : Shape := ⟨0, ![]⟩
abbrev S4x16384x16x1 : Shape := ⟨4, ![4, 16384, 16, 1]⟩
abbrev S4x16384x16x3 : Shape := ⟨4, ![4, 16384, 16, 3]⟩
abbrev S4x16384x1x3 : Shape := ⟨4, ![4, 16384, 1, 3]⟩
abbrev S4x16384x16x4 : Shape := ⟨4, ![4, 16384, 16, 4]⟩
abbrev S4x16384x16x64 : Shape := ⟨4, ![4, 16384, 16, 64]⟩
abbrev S1x1x1x64 : Shape := ⟨4, ![1, 1, 1, 64]⟩
abbrev S4x16384x16x128 : Shape := ⟨4, ![4, 16384, 16, 128]⟩
abbrev S4x16384x128 : Shape := ⟨3, ![4, 16384, 128]⟩

abbrev nBuf : Space → Nat
  | .hbm => 50
  | .vmem => 0
  | .smem => 0
  | _ => 0

abbrev bufTy : (tb : Table) → Fin (tcTables nBuf tb) → BufTy
  | .hbm, ⟨0, _⟩ => ⟨S4x16384x3, .f32⟩
  | .hbm, ⟨1, _⟩ => ⟨S4x16384x64, .f32⟩
  | .hbm, ⟨2, _⟩ => ⟨S4x16384x16, .i32⟩
  | .hbm, ⟨3, _⟩ => ⟨S4x64, .f32⟩
  | .hbm, ⟨4, _⟩ => ⟨S64, .f32⟩
  | .hbm, ⟨5, _⟩ => ⟨S_, .i32⟩
  | .hbm, ⟨6, _⟩ => ⟨S4x16384x16, .i32⟩
  | .hbm, ⟨7, _⟩ => ⟨S4x16384x16, .i1⟩
  | .hbm, ⟨8, _⟩ => ⟨S_, .i32⟩
  | .hbm, ⟨9, _⟩ => ⟨S4x16384x16, .i32⟩
  | .hbm, ⟨10, _⟩ => ⟨S4x16384x16, .i32⟩
  | .hbm, ⟨11, _⟩ => ⟨S4x16384x16, .i32⟩
  | .hbm, ⟨12, _⟩ => ⟨S4x16384x16x1, .i32⟩
  | .hbm, ⟨13, _⟩ => ⟨S4x16384x16x3, .f32⟩
  | .hbm, ⟨14, _⟩ => ⟨S4x16384x1x3, .f32⟩
  | .hbm, ⟨15, _⟩ => ⟨S4x16384x16x3, .f32⟩
  | .hbm, ⟨16, _⟩ => ⟨S4x16384x16x3, .f32⟩
  | .hbm, ⟨17, _⟩ => ⟨S4x16384x16x3, .f32⟩
  | .hbm, ⟨18, _⟩ => ⟨S_, .f32⟩
  | .hbm, ⟨19, _⟩ => ⟨S4x16384x16, .f32⟩
  | .hbm, ⟨20, _⟩ => ⟨S4x16384x16x1, .f32⟩
  | .hbm, ⟨21, _⟩ => ⟨S4x16384x16x1, .f32⟩
  | .hbm, ⟨22, _⟩ => ⟨S4x16384x16x4, .f32⟩
  | .hbm, ⟨23, _⟩ => ⟨S4x16384x16x64, .f32⟩
  | .hbm, ⟨24, _⟩ => ⟨S1x1x1x64, .f32⟩
  | .hbm, ⟨25, _⟩ => ⟨S4x16384x16x64, .f32⟩
  | .hbm, ⟨26, _⟩ => ⟨S4x16384x16x64, .f32⟩
  | .hbm, ⟨27, _⟩ => ⟨S_, .f32⟩
  | .hbm, ⟨28, _⟩ => ⟨S_, .f32⟩
  | .hbm, ⟨29, _⟩ => ⟨S4x16384x16x64, .f32⟩
  | .hbm, ⟨30, _⟩ => ⟨S4x16384x16x64, .i1⟩
  | .hbm, ⟨31, _⟩ => ⟨S_, .f32⟩
  | .hbm, ⟨32, _⟩ => ⟨S4x16384x16x64, .f32⟩
  | .hbm, ⟨33, _⟩ => ⟨S4x16384x16x64, .f32⟩
  | .hbm, ⟨34, _⟩ => ⟨S4x16384x16x64, .f32⟩
  | .hbm, ⟨35, _⟩ => ⟨S_, .i32⟩
  | .hbm, ⟨36, _⟩ => ⟨S4x16384x16, .i32⟩
  | .hbm, ⟨37, _⟩ => ⟨S4x16384x16, .i1⟩
  | .hbm, ⟨38, _⟩ => ⟨S_, .i32⟩
  | .hbm, ⟨39, _⟩ => ⟨S4x16384x16, .i32⟩
  | .hbm, ⟨40, _⟩ => ⟨S4x16384x16, .i32⟩
  | .hbm, ⟨41, _⟩ => ⟨S4x16384x16, .i32⟩
  | .hbm, ⟨42, _⟩ => ⟨S4x16384x16x1, .i32⟩
  | .hbm, ⟨43, _⟩ => ⟨S4x16384x16x64, .f32⟩
  | .hbm, ⟨44, _⟩ => ⟨S4x16384x16x128, .f32⟩
  | .hbm, ⟨45, _⟩ => ⟨S_, .f32⟩
  | .hbm, ⟨46, _⟩ => ⟨S4x16384x128, .f32⟩
  | .hbm, ⟨47, _⟩ => ⟨S_, .f32⟩
  | .hbm, ⟨48, _⟩ => ⟨S4x16384x128, .f32⟩
  | .hbm, ⟨49, _⟩ => ⟨S4x16384x128, .f32⟩
  | _, _ => ⟨S4x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]

class Facts₀ : Prop where
  bcast_S_S4x16384x16 : S_.BroadcastsInDim S4x16384x16 (![] : Fin 0 → Fin S4x16384x16.rank)
  bcast_S4x16384x16_S4x16384x16x1_0_1_2 : S4x16384x16.BroadcastsInDim S4x16384x16x1 (![0, 1, 2] : Fin 3 → Fin S4x16384x16x1.rank)
  bcast_S4x16384x3_S4x16384x1x3_0_1_3 : S4x16384x3.BroadcastsInDim S4x16384x1x3 (![0, 1, 3] : Fin 3 → Fin S4x16384x1x3.rank)
  bcast_S4x16384x1x3_S4x16384x16x3_0_1_2_3 : S4x16384x1x3.BroadcastsInDim S4x16384x16x3 (![0, 1, 2, 3] : Fin 4 → Fin S4x16384x16x3.rank)
  reducesTo_S4x16384x16x3_S4x16384x16_d3 : S4x16384x16x3.ReducesTo [3] S4x16384x16
  h_S_ : 0 < S_.numel
  concatenates_S4x16384x16x3_S4x16384x16x1_S4x16384x16x4_d3 : Shape.Concatenates [S4x16384x16x3, S4x16384x16x1] S4x16384x16x4 3
  bcast_S64_S1x1x1x64_3 : S64.BroadcastsInDim S1x1x1x64 (![3] : Fin 1 → Fin S1x1x1x64.rank)
  bcast_S1x1x1x64_S4x16384x16x64_0_1_2_3 : S1x1x1x64.BroadcastsInDim S4x16384x16x64 (![0, 1, 2, 3] : Fin 4 → Fin S4x16384x16x64.rank)
  bcast_S_S4x16384x16x64 : S_.BroadcastsInDim S4x16384x16x64 (![] : Fin 0 → Fin S4x16384x16x64.rank)
  concatenates_S4x16384x16x64_S4x16384x16x64_S4x16384x16x128_d3 : Shape.Concatenates [S4x16384x16x64, S4x16384x16x64] S4x16384x16x128 3
  reducesTo_S4x16384x16x128_S4x16384x128_d2 : S4x16384x16x128.ReducesTo [2] S4x16384x128
  bcast_S_S4x16384x128 : S_.BroadcastsInDim S4x16384x128 (![] : Fin 0 → Fin S4x16384x128.rank)
  gather_S4x16384x3_S4x16384x16x1_S4x16384x16x3_3_1_0_0_1_3_113_wf : GatherDims.WF S4x16384x3 S4x16384x16x1 S4x16384x16x3 [3] [1] [0] [1] [0] 3 ![1, 1, 3]
  dot_S4x16384x16x4_S4x64_S4x16384x16x64_3_0_012_1_n_n_wf : DotDims.WF S4x16384x16x4 S4x64 S4x16384x16x64 [3] [0] [0, 1, 2] [1] [] []
  gather_S4x16384x64_S4x16384x16x1_S4x16384x16x64_3_1_0_0_1_3_1164_wf : GatherDims.WF S4x16384x64 S4x16384x16x1 S4x16384x16x64 [3] [1] [0] [1] [0] 3 ![1, 1, 64]

variable [Facts₀]

def gather_S4x16384x3_S4x16384x16x1_S4x16384x16x3_3_1_0_0_1_3_113 : GatherDims S4x16384x3 S4x16384x16x1 S4x16384x16x3 where
  offsetDims := [3]
  collapsedSliceDims := [1]
  operandBatchingDims := [0]
  startIndicesBatchingDims := [0]
  startIndexMap := [1]
  indexVectorDim := 3
  sliceSizes := ![1, 1, 3]
  wf := gather_S4x16384x3_S4x16384x16x1_S4x16384x16x3_3_1_0_0_1_3_113_wf
def dot_S4x16384x16x4_S4x64_S4x16384x16x64_3_0_012_1_n_n : DotDims S4x16384x16x4 S4x64 S4x16384x16x64 where
  lhsContracting := [3]
  rhsContracting := [0]
  lhsNonContracting := [0, 1, 2]
  rhsNonContracting := [1]
  lhsBatch := []
  rhsBatch := []
  wf := dot_S4x16384x16x4_S4x64_S4x16384x16x64_3_0_012_1_n_n_wf
def gather_S4x16384x64_S4x16384x16x1_S4x16384x16x64_3_1_0_0_1_3_1164 : GatherDims S4x16384x64 S4x16384x16x1 S4x16384x16x64 where
  offsetDims := [3]
  collapsedSliceDims := [1]
  operandBatchingDims := [0]
  startIndicesBatchingDims := [0]
  startIndexMap := [1]
  indexVectorDim := 3
  sliceSizes := ![1, 1, 64]
  wf := gather_S4x16384x64_S4x16384x16x1_S4x16384x16x64_3_1_0_0_1_3_1164_wf

class Facts : Prop extends Facts₀ where

variable [Facts]
-- ==== Proof.LoopValue.lean ====
/-
  What the gather loop leaves in the accumulator.

  The body zeroes a [2048, 128] accumulator and runs 16 trips; trip k loads rows k·1024 … k·1024 + 1023 of the two
  table blocks and stores, over the whole accumulator, the trip's payload of those rows and of the accumulator's
  contents. So the contents after k trips obey a recursion: zero at the start, and after trip k the payload of the
  contents before it. Row q·16 + s of the accumulator belongs to query q and neighbour slot s.
-/
import proofs.«404029_j65532611002531_3_alg».proof.Proof.Gen.KernelIdeal.Frame
import Idealize.ShloMosaic.Lib.ValueIdx
import Idealize.ShloMosaic.Lib.Pipeline.Value

set_option maxRecDepth 16384

noncomputable section

namespace Cert.KernelIdeal.LoopValue

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-- The zero offsets of a rank-2 rectangle, however spelt. -/
theorem hz2 : (![0, 0] : Fin 2 → Nat) = fun _ => 0 := by
  funext a; match a with | ⟨0, _⟩ => rfl | ⟨1, _⟩ => rfl

/-- The whole accumulator as a rectangle. -/
abbrev whole9 : Rect S2048x128 := Rect.unit (s := S2048x128) ![0, 0] S2048x128.size inb_S2048x128_S2048x128_0_0

/-- The rows of a table block that trip `k` loads. -/
abbrev chunk (k : Fin k0_t1_loop.trips) : Rect S1x16384x128 :=
  Rect.unit (s := S1x16384x128) (k0_off1 k) S1x1024x128.size (k0_off1_inb k)

/-- ONE TRIP's store: over the whole accumulator, the trip's payload of the index block, of the trip's rows of the two
    table blocks, and of the accumulator's contents before the trip. -/
theorem tripL_eq (𝒱 : Variants) (c : Dev nD) (bd : Option 𝒱.V) (i : grid0.Coords) (arg2 : Memref sig .tc .vmem S1x128x3 .f32) (harg2 : arg2.IsWhole) (arg3 : Memref sig .tc .vmem S1x16384x128 .bf16) (harg3 : arg3.IsWhole) (arg4 : Memref sig .tc .vmem S1x16384x128 .bf16) (harg4 : arg4.IsWhole) (arg5 : Memref sig .tc .vmem S1x128x16 .i32) (harg5 : arg5.IsWhole) (arg6 : Memref sig .tc .vmem S4x64 .f32) (harg6 : arg6.IsWhole) (arg7 : Memref sig .tc .vmem S64 .f32) (harg7 : arg7.IsWhole) (arg8 : Memref sig .tc .vmem S1x128x128 .f32) (harg8 : arg8.IsWhole) (arg9 : Memref sig .tc .vmem S2048x128 .f32) (harg9 : arg9.IsWhole) (v0 : Vec F S1x128x16 .i32)
    (X3 : BufTy.Contents (Elt F) arg3.view.ty) (X4 : BufTy.Contents (Elt F) arg4.view.ty) (k : Fin k0_t1_loop.trips)
    (f : BufTy.Contents (Elt F) arg9.view.ty) :
    tripL_k0_t1 (F := F) 𝒱 c bd i arg2 harg2 arg3 harg3 arg4 harg4 arg5 harg5 arg6 harg6 arg7 harg7 arg8 harg8 arg9 harg9 v0 X3 X4 k f
      = [⟨whole9, k0_pay3 v0 k (View.readAt (Elt F) arg3.view (chunk k).toLoadRect X3)
            (View.readAt (Elt F) arg4.view (chunk k).toLoadRect X4)
            (View.readAt (Elt F) arg9.view whole9.toLoadRect f)⟩] := by
  unfold tripL_k0_t1 trip_k0_t1
  dsimp only

/-- Reading a buffer whole after a store over the whole of it (a rectangle at zero offsets of the full extents, however
    the zeros are spelt): the stored value, whatever was stored before. -/
theorem read_writes_unit_zero {Val : EltTy → Type} {sig' : RefSig} {κ : Kind} {sp : Space} {S : Shape} {e : EltTy}
    (v : View sig' κ sp S e) (G : v.ty.Contents Val) {off : Fin S.rank → Nat} (h : off = fun _ => 0)
    (inb : ∀ a, off a + S.size a ≤ S.size a) (w : S.Idx → Val e) (L : List (View.Piece Val S e)) :
    v.read Val (v.writes Val G ((⟨Rect.unit off S.size inb, w⟩ : View.Piece Val S e) :: L)) = w := by
  subst h; funext y
  have e := View.read_writes_cons_emb v G (Rect.whole S) w L y
  rw [Rect.emb_whole_apply] at e
  exact e

/-- The accumulator's case. -/
theorem read_writes_whole (v : View sig .tc .vmem S2048x128 .f32) (G : v.ty.Contents (Elt F)) (w : S2048x128.Idx → Elt F .f32)
    (L : List (View.Piece (Elt F) S2048x128 .f32)) :
    v.read (Elt F) (v.writes (Elt F) G ((⟨whole9, w⟩ : View.Piece (Elt F) S2048x128 .f32) :: L)) = w :=
  read_writes_unit_zero v G hz2 _ w L

/-- A load of the whole accumulator reads its contents. -/
theorem readAt_whole (v : View sig .tc .vmem S2048x128 .f32) (f : v.ty.Contents (Elt F)) :
    v.readAt (Elt F) whole9.toLoadRect f = v.read (Elt F) f := by
  show View.ld (v.read (Elt F) f) whole9 = _
  exact View.ld_unit_zero hz2 _ _

/-- The accumulator's contents after the first `k` trips, over entry contents `G`. -/
def accAt (𝒱 : Variants) (c : Dev nD) (bd : Option 𝒱.V) (i : grid0.Coords) (arg2 : Memref sig .tc .vmem S1x128x3 .f32) (harg2 : arg2.IsWhole) (arg3 : Memref sig .tc .vmem S1x16384x128 .bf16) (harg3 : arg3.IsWhole) (arg4 : Memref sig .tc .vmem S1x16384x128 .bf16) (harg4 : arg4.IsWhole) (arg5 : Memref sig .tc .vmem S1x128x16 .i32) (harg5 : arg5.IsWhole) (arg6 : Memref sig .tc .vmem S4x64 .f32) (harg6 : arg6.IsWhole) (arg7 : Memref sig .tc .vmem S64 .f32) (harg7 : arg7.IsWhole) (arg8 : Memref sig .tc .vmem S1x128x128 .f32) (harg8 : arg8.IsWhole) (arg9 : Memref sig .tc .vmem S2048x128 .f32) (harg9 : arg9.IsWhole) (v0 : Vec F S1x128x16 .i32)
    (X3 : BufTy.Contents (Elt F) arg3.view.ty) (X4 : BufTy.Contents (Elt F) arg4.view.ty) (G : BufTy.Contents (Elt F) arg9.view.ty)
    (k : ℕ) : S2048x128.Idx → Elt F .f32 :=
  arg9.view.read (Elt F) (arg9.view.writes (Elt F) G (pb_k0_t1 (F := F) 𝒱 c bd i arg2 harg2 arg3 harg3 arg4 harg4 arg5 harg5 arg6 harg6 arg7 harg7 arg8 harg8 arg9 harg9 v0 X3 X4 G k))

/-- THE RECURSION: after trip `k` the accumulator holds the trip's payload of what it held before. -/
theorem accAt_succ (𝒱 : Variants) (c : Dev nD) (bd : Option 𝒱.V) (i : grid0.Coords) (arg2 : Memref sig .tc .vmem S1x128x3 .f32) (harg2 : arg2.IsWhole) (arg3 : Memref sig .tc .vmem S1x16384x128 .bf16) (harg3 : arg3.IsWhole) (arg4 : Memref sig .tc .vmem S1x16384x128 .bf16) (harg4 : arg4.IsWhole) (arg5 : Memref sig .tc .vmem S1x128x16 .i32) (harg5 : arg5.IsWhole) (arg6 : Memref sig .tc .vmem S4x64 .f32) (harg6 : arg6.IsWhole) (arg7 : Memref sig .tc .vmem S64 .f32) (harg7 : arg7.IsWhole) (arg8 : Memref sig .tc .vmem S1x128x128 .f32) (harg8 : arg8.IsWhole) (arg9 : Memref sig .tc .vmem S2048x128 .f32) (harg9 : arg9.IsWhole) (v0 : Vec F S1x128x16 .i32)
    (X3 : BufTy.Contents (Elt F) arg3.view.ty) (X4 : BufTy.Contents (Elt F) arg4.view.ty) (G : BufTy.Contents (Elt F) arg9.view.ty)
    (k : Fin k0_t1_loop.trips) :
    accAt 𝒱 c bd i arg2 harg2 arg3 harg3 arg4 harg4 arg5 harg5 arg6 harg6 arg7 harg7 arg8 harg8 arg9 harg9 v0 X3 X4 G (k.val + 1)
      = k0_pay3 v0 k (View.readAt (Elt F) arg3.view (chunk k).toLoadRect X3) (View.readAt (Elt F) arg4.view (chunk k).toLoadRect X4)
          (accAt 𝒱 c bd i arg2 harg2 arg3 harg3 arg4 harg4 arg5 harg5 arg6 harg6 arg7 harg7 arg8 harg8 arg9 harg9 v0 X3 X4 G k.val) := by
  unfold accAt
  rw [pb_k0_t1_succ, tripL_eq, List.singleton_append, read_writes_whole, readAt_whole]

/-- Before the first trip the accumulator holds its entry contents. -/
theorem accAt_zero (𝒱 : Variants) (c : Dev nD) (bd : Option 𝒱.V) (i : grid0.Coords) (arg2 : Memref sig .tc .vmem S1x128x3 .f32) (harg2 : arg2.IsWhole) (arg3 : Memref sig .tc .vmem S1x16384x128 .bf16) (harg3 : arg3.IsWhole) (arg4 : Memref sig .tc .vmem S1x16384x128 .bf16) (harg4 : arg4.IsWhole) (arg5 : Memref sig .tc .vmem S1x128x16 .i32) (harg5 : arg5.IsWhole) (arg6 : Memref sig .tc .vmem S4x64 .f32) (harg6 : arg6.IsWhole) (arg7 : Memref sig .tc .vmem S64 .f32) (harg7 : arg7.IsWhole) (arg8 : Memref sig .tc .vmem S1x128x128 .f32) (harg8 : arg8.IsWhole) (arg9 : Memref sig .tc .vmem S2048x128 .f32) (harg9 : arg9.IsWhole) (v0 : Vec F S1x128x16 .i32)
    (X3 : BufTy.Contents (Elt F) arg3.view.ty) (X4 : BufTy.Contents (Elt F) arg4.view.ty) (G : BufTy.Contents (Elt F) arg9.view.ty) :
    accAt 𝒱 c bd i arg2 harg2 arg3 harg3 arg4 harg4 arg5 harg5 arg6 harg6 arg7 harg7 arg8 harg8 arg9 harg9 v0 X3 X4 G 0 = arg9.view.read (Elt F) G := by
  unfold accAt; rw [pb_k0_t1.eq_1]; rfl

end Cert.KernelIdeal.LoopValue

end
-- ==== Proof.Body.lean ====
/-
  What one grid point's body leaves in the output block, as a pure term: the last payload of the body's loads, with
  the accumulator read after the sixteen trips of the gather loop over its zero fill.
-/
import proofs.«404029_j65532611002531_3_alg».proof.Proof.LoopValue

set_option maxRecDepth 16384

noncomputable section

namespace Cert.KernelIdeal.Body

open Cert.KernelIdeal Cert.KernelIdeal.Gen Cert.KernelIdeal.LoopValue Idealize.ShloMosaic Idealize.ShloMosaic.TcCoe Idealize.SL.Sem
open Idealize.ShloMosaic.Tactic Idealize.ShloMosaic.ValueIdx

variable {F : FTy → Type} [FloatOps F]

theorem hz3 : (![0, 0, 0] : Fin 3 → Nat) = fun _ => 0 := by
  funext a; match a with | ⟨0, _⟩ => rfl | ⟨1, _⟩ => rfl | ⟨2, _⟩ => rfl

theorem hz1 : (![0] : Fin 1 → Nat) = fun _ => 0 := by
  funext a; match a with | ⟨0, _⟩ => rfl

/-- The accumulator's contents when the loop is entered: the zero fill stored over whatever it held. -/
abbrev zeroFill (arg9 : Memref sig .tc .vmem S2048x128 .f32) : BufTy.Contents (Elt F) arg9.view.ty :=
  arg9.view.writes (Elt F) arg9.view.junk [⟨whole9, k0_pay2⟩]

/-- The accumulator after the loop, as the body reads it: the sixteen trips over the zero fill, on the point's index
    block `x3` and table blocks `x1`, `x2`. -/
abbrev accEnd (c : Dev nD) (i : grid0.Coords) (arg2 : Memref sig .tc .vmem S1x128x3 .f32) (harg2 : arg2.IsWhole) (arg3 : Memref sig .tc .vmem S1x16384x128 .bf16) (harg3 : arg3.IsWhole) (arg4 : Memref sig .tc .vmem S1x16384x128 .bf16) (harg4 : arg4.IsWhole) (arg5 : Memref sig .tc .vmem S1x128x16 .i32) (harg5 : arg5.IsWhole) (arg6 : Memref sig .tc .vmem S4x64 .f32) (harg6 : arg6.IsWhole) (arg7 : Memref sig .tc .vmem S64 .f32) (harg7 : arg7.IsWhole) (arg8 : Memref sig .tc .vmem S1x128x128 .f32) (harg8 : arg8.IsWhole) (arg9 : Memref sig .tc .vmem S2048x128 .f32) (harg9 : arg9.IsWhole)
    (x1 x2 : Vec F S1x16384x128 .bf16) (x3 : Vec F S1x128x16 .i32) : S2048x128.Idx → Elt F .f32 :=
  accAt Variants.none c none i arg2 harg2 arg3 harg3 arg4 harg4 arg5 harg5 arg6 harg6 arg7 harg7 arg8 harg8 arg9 harg9 x3 (harg3.unread x1) (harg4.unread x2) (zeroFill arg9)
    (Scf.trips k0_t1_loop.lb k0_t1_loop.ub k0_t1_loop.st)

set_option maxHeartbeats 2000000 in
/-- THE BODY'S RESULT for the output block. -/
theorem out_eq (c : Dev nD) (i : grid0.Coords) (arg2 : Memref sig .tc .vmem S1x128x3 .f32) (harg2 : arg2.IsWhole) (arg3 : Memref sig .tc .vmem S1x16384x128 .bf16) (harg3 : arg3.IsWhole) (arg4 : Memref sig .tc .vmem S1x16384x128 .bf16) (harg4 : arg4.IsWhole) (arg5 : Memref sig .tc .vmem S1x128x16 .i32) (harg5 : arg5.IsWhole) (arg6 : Memref sig .tc .vmem S4x64 .f32) (harg6 : arg6.IsWhole) (arg7 : Memref sig .tc .vmem S64 .f32) (harg7 : arg7.IsWhole) (arg8 : Memref sig .tc .vmem S1x128x128 .f32) (harg8 : arg8.IsWhole) (arg9 : Memref sig .tc .vmem S2048x128 .f32) (harg9 : arg9.IsWhole)
    (x0 : Vec F S1x128x3 .f32) (x1 : Vec F S1x16384x128 .bf16) (x2 : Vec F S1x16384x128 .bf16) (x3 : Vec F S1x128x16 .i32) (x4 : Vec F S4x64 .f32) (x5 : Vec F S64 .f32) :
    out0_A_6 c i arg2 harg2 arg3 harg3 arg4 harg4 arg5 harg5 arg6 harg6 arg7 harg7 arg8 harg8 arg9 harg9 x0 x1 x2 x3 x4 x5
      = k0_pay1 (k0_pay5 (accEnd c i arg2 harg2 arg3 harg3 arg4 harg4 arg5 harg5 arg6 harg6 arg7 harg7 arg8 harg8 arg9 harg9 x1 x2 x3)) (k0_pay6 (accEnd c i arg2 harg2 arg3 harg3 arg4 harg4 arg5 harg5 arg6 harg6 arg7 harg7 arg8 harg8 arg9 harg9 x1 x2 x3) x0 x4 x5)
          (k0_pay7 (accEnd c i arg2 harg2 arg3 harg3 arg4 harg4 arg5 harg5 arg6 harg6 arg7 harg7 arg8 harg8 arg9 harg9 x1 x2 x3) x0 x4 x5) (k0_pay8 (accEnd c i arg2 harg2 arg3 harg3 arg4 harg4 arg5 harg5 arg6 harg6 arg7 harg7 arg8 harg8 arg9 harg9 x1 x2 x3) x0 x4 x5) := by
  generalize hT : k0_pay1 (F := F) _ _ _ _ = T
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero hz3]
  simp only [View.writes_append, readAt_whole, View.readAt_eq_ld, harg2.read_unread, harg5.read_unread, harg6.read_unread,
    harg7.read_unread, View.ld_unit_zero (S := S1x128x3) hz3, View.ld_unit_zero (S := S1x128x16) hz3,
    View.ld_unit_zero (S := S4x64) hz2, View.ld_unit_zero (S := S64) hz1, View.ld_unit_zero (S := S2048x128) hz2]
  exact hT

end Cert.KernelIdeal.Body

end
-- ==== Proof.KernelPayTrip.lean ====
/-
  One trip of the gather loop, read at an index.

  Trip k compares every index word of the block with the row numbers k·1024 … k·1024 + 1023, giving a 0/1 matrix with
  at most one 1 per row, and multiplies it with rows k·1024 … of the high and of the low table block. A row of the
  product is the table's row at the index when the index falls in the trip's range and zero otherwise, since zero times
  any extended real is zero and one times it is itself. The trip adds both products to the accumulator.
-/
import proofs.«404029_j65532611002531_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayTrip

open Idealize.ShloMosaic Idealize.ShloMosaic.ValueIdx Cert.KernelIdeal Cert.KernelIdeal.Gen

variable [Cert.KernelIdeal.Facts]

/-! ## The chunk's first row, as a word -/

/-- The loop has at most sixteen trips. -/
theorem trips_lt (k : Fin k0_t1_loop.trips) : k.val < 16 := Nat.lt_of_lt_of_le k.isLt k0_t1_abs.2.1

/-- The first table row of the chunk trip `k` multiplies with, as the 32-bit word the trip computes from its
    induction variable: `(0 + k · 1) · 1024`. -/
def base (k : Fin k0_t1_loop.trips) : BitVec 32 :=
  Scalar.muli (Scalar.addi 0#32 (Scalar.muli (Scf.iv 0#32 1#32 k) 1#32)) 1024#32

/-- It is the word of `k · 1024`: with `k < 16` nothing wraps. -/
theorem base_eq (k : Fin k0_t1_loop.trips) : base k = BitVec.ofNat 32 (k.val * 1024) := by
  have hk := trips_lt k
  unfold base Scalar.muli Scalar.addi IntOp.muli IntOp.addi Scf.iv
  apply BitVec.eq_of_toNat_eq
  simp only [BitVec.toNat_mul, BitVec.toNat_add, BitVec.toNat_ofNat]
  omega

/-- Two words of naturals below `2 ^ 32` are equal exactly when the naturals are. -/
theorem ofNat_eq_iff (a b : Nat) (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · rintro rfl; rfl

/-! ## The one-hot selector -/

/-- The neighbour indices of the block, broadcast along the chunk's rows. -/
def idxB (v0 : Vec Ideal S1x128x16 .i32) : IVec S128x16x1024 32 :=
  broadcastTo S128x16x1024
    (shapeCast S128x16x1 (shapeCast S128x16 v0 shapeCasts_S1x128x16_S128x16 : IVec S128x16 32) shapeCasts_S128x16_S128x16x1)
    broadcasts_S128x16x1_S128x16x1024

/-- The table rows of the chunk, `n + base`, broadcast over queries and neighbour slots. -/
def rowB (w : BitVec 32) : IVec S128x16x1024 32 :=
  broadcastTo S128x16x1024 (addi (iota .tc S1x1x1024 32 [2] iota_S1x1x1024_d2_w32) (broadcast S1x1x1024 w))
    broadcasts_S1x1x1024_S128x16x1024

/-- The selector of trip `k`: entry `((q, s), n)` is `1` when neighbour slot `s` of query `q` names row `n` of the
    chunk, else `0`. -/
def onehot (v0 : Vec Ideal S1x128x16 .i32) (k : Fin k0_t1_loop.trips) : FVec Ideal S2048x1024 .bf16 :=
  shapeCast S2048x1024
    (truncf .bf16 (sitofp .f32 (extui 32 (cmpi .eq (idxB v0) (rowB (base k))) natLt_1_32) : FVec Ideal S128x16x1024 .f32)
      bitsLt_bf16_f32)
    shapeCasts_S128x16x1024_S2048x1024

/-- A chunk of the table with its leading unit axis dropped. -/
def chunk (v : Vec Ideal S1x1024x128 .bf16) : FVec Ideal S1024x128 .bf16 :=
  shapeCast S1024x128 v shapeCasts_S1x1024x128_S1024x128

/-- The trip's stored value, with its parts named. -/
theorem pay3_unfold (v0 : Vec Ideal S1x128x16 .i32) (k : Fin k0_t1_loop.trips) (v60 v63 : Vec Ideal S1x1024x128 .bf16)
    (v65 : Vec Ideal S2048x128 .f32) :
    k0_pay3 (F := Ideal) v0 k v60 v63 v65
      = shapeCast S2048x128
          (addf v65
            (addf
              (matmul dot_S2048x1024_S1024x128_S2048x128_1_0_0_1_n_n none (onehot v0 k) (chunk v60) (constant S2048x128 .f32 0x00000000#32))
              (matmul dot_S2048x1024_S1024x128_S2048x128_1_0_0_1_n_n none (onehot v0 k) (chunk v63) (constant S2048x128 .f32 0x00000000#32))))
          shapeCasts_S2048x128_S2048x128 := rfl

/-- The broadcast indices at `(q, s, n)`: the index word of query `q`, slot `s`. -/
theorem idxB_apply (v0 : Vec Ideal S1x128x16 .i32) (q : Fin 128) (s : Fin 16) (n : Fin 1024) :
    idxB v0 (ix3 q s n) = v0 (ix3 (0 : Fin 1) q s) := by
  unfold idxB
  refine (broadcastTo_apply _ _ (ix3 q s n) (ix3 q s (0 : Fin 1)) (fun a => ?_)).trans ?_
  · match a with
    | ⟨0, _⟩ => rfl
    | ⟨1, _⟩ => rfl
    | ⟨2, _⟩ => rfl
  refine (shapeCast_apply _ _ (ix3 q s (0 : Fin 1)) (ix2 q s) ?_).trans ?_
  · rw [Shape.rowMajor_val_three, Shape.rowMajor_val_two]
    show q.val * 16 + s.val = (q.val * 16 + s.val) * 1 + 0
    omega
  exact shapeCast_1ab_ab_apply _ _ q s

/-- The broadcast rows at `(q, s, n)`: the word of `n` plus the base. -/
theorem rowB_apply (w : BitVec 32) (q : Fin 128) (s : Fin 16) (n : Fin 1024) :
    rowB w (ix3 q s n) = BitVec.ofNat 32 n.val + w := by
  unfold rowB
  refine (broadcastTo_apply _ _ (ix3 q s n) (ix3 (0 : Fin 1) (0 : Fin 1) n) (fun a => ?_)).trans ?_
  · match a with
    | ⟨0, _⟩ => rfl
    | ⟨1, _⟩ => rfl
    | ⟨2, _⟩ => rfl
  show BitVec.ofNat 32 (0 * 1024 + n.val) + w = _
  rw [Nat.zero_mul, Nat.zero_add]

/-- A compared, widened and converted pair of words is `1` when they are equal and `0` otherwise. -/
theorem sitofp_cmpi_eq (x y : BitVec 32) :
    ((((IntOp.cmpi .eq x y).setWidth 32).toInt : ℝ) : EReal) = if x = y then 1 else 0 := by
  unfold IntOp.cmpi
  by_cases h : x = y
  · subst h
    rw [if_pos rfl]
    simp
  · rw [if_neg h]
    have : (x == y) = false := by simpa using h
    simp [this]

/-- The selector at `((q, s), n)`. -/
theorem onehot_apply (v0 : Vec Ideal S1x128x16 .i32) (k : Fin k0_t1_loop.trips) (q : Fin 128) (s : Fin 16) (n : Fin 1024) :
    onehot v0 k (ix2 (⟨q.val * 16 + s.val, by have := q.isLt; have := s.isLt; omega⟩ : Fin 2048) n)
      = if v0 (ix3 (0 : Fin 1) q s) = BitVec.ofNat 32 n.val + base k then 1 else 0 := by
  unfold onehot
  refine (shapeCast_apply _ _ _ (ix3 q s n) ?_).trans ?_
  · rw [Shape.rowMajor_val_three, Shape.rowMajor_val_two]
    rfl
  show ((((IntOp.cmpi .eq (idxB v0 (ix3 q s n)) (rowB (base k) (ix3 q s n))).setWidth 32).toInt : ℝ) : EReal) = _
  rw [sitofp_cmpi_eq, idxB_apply, rowB_apply]

/-! ## The product at an index -/

theorem lhs_0 (i : S2048x128.Idx) (c : dot_S2048x1024_S1024x128_S2048x128_1_0_0_1_n_n.contr.Idx) :
    (dot_S2048x1024_S1024x128_S2048x128_1_0_0_1_n_n.lhsIdx i c 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_1 (i : S2048x128.Idx) (c : dot_S2048x1024_S1024x128_S2048x128_1_0_0_1_n_n.contr.Idx) :
    (dot_S2048x1024_S1024x128_S2048x128_1_0_0_1_n_n.lhsIdx i c 1).val = (c ⟨0, by decide⟩).val :=
  dot_S2048x1024_S1024x128_S2048x128_1_0_0_1_n_n.lhsIdx_val_of_single rfl i c
theorem rhs_0 (i : S2048x128.Idx) (c : dot_S2048x1024_S1024x128_S2048x128_1_0_0_1_n_n.contr.Idx) :
    (dot_S2048x1024_S1024x128_S2048x128_1_0_0_1_n_n.rhsIdx i c 0).val = (c ⟨0, by decide⟩).val :=
  dot_S2048x1024_S1024x128_S2048x128_1_0_0_1_n_n.rhsIdx_val_of_single rfl i c
theorem rhs_1 (i : S2048x128.Idx) (c : dot_S2048x1024_S1024x128_S2048x128_1_0_0_1_n_n.contr.Idx) :
    (dot_S2048x1024_S1024x128_S2048x128_1_0_0_1_n_n.rhsIdx i c 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into a zero accumulator at `(row, l)`: the sum over the chunk's rows. -/
theorem matmul_at (A : FVec Ideal S2048x1024 .bf16) (B : FVec Ideal S1024x128 .bf16) (row : Fin 2048) (l : Fin 128) :
    matmul dot_S2048x1024_S1024x128_S2048x128_1_0_0_1_n_n none A B (constant S2048x128 .f32 0x00000000#32) (ix2 row l)
      = ∑ n : Fin 1024, A (ix2 row n) * B (ix2 n l) := by
  simp only [matmul]
  rw [Ideal.matmul_constant_zero_apply, ← Equiv.sum_comp (contrEquiv1 dot_S2048x1024_S1024x128_S2048x128_1_0_0_1_n_n 1024 rfl rfl).symm]
  refine Finset.sum_congr rfl fun n _ => ?_
  have hk := contrEquiv1_symm_val dot_S2048x1024_S1024x128_S2048x128_1_0_0_1_n_n 1024 rfl rfl n
  have el : dot_S2048x1024_S1024x128_S2048x128_1_0_0_1_n_n.lhsIdx (ix2 row l) ((contrEquiv1 dot_S2048x1024_S1024x128_S2048x128_1_0_0_1_n_n 1024 rfl rfl).symm n) = ix2 row n := funext fun a => Fin.ext (by
    match a with
    | ⟨0, _⟩ => exact lhs_0 _ _
    | ⟨1, _⟩ => exact (lhs_1 _ _).trans hk)
  have er : dot_S2048x1024_S1024x128_S2048x128_1_0_0_1_n_n.rhsIdx (ix2 row l) ((contrEquiv1 dot_S2048x1024_S1024x128_S2048x128_1_0_0_1_n_n 1024 rfl rfl).symm n) = ix2 n l := funext fun a => Fin.ext (by
    match a with
    | ⟨0, _⟩ => exact (rhs_0 _ _).trans hk
    | ⟨1, _⟩ => exact rhs_1 _ _)
  rw [el, er]

/-! ## One trip at an index -/

/-- A chunk at `(n, l)` is the loaded block at `(0, n, l)`. -/
theorem chunk_apply (v : Vec Ideal S1x1024x128 .bf16) (n : Fin 1024) (l : Fin 128) :
    chunk v (ix2 n l) = v (ix3 (0 : Fin 1) n l) :=
  shapeCast_1ab_ab_apply _ _ n l

/-- A selector row against a chunk: the chunk's row the index names, when it lies in the chunk, else zero. -/
theorem select_sum (k : Fin k0_t1_loop.trips) (r : Fin 16384) (f : Fin 1024 → EReal) :
    (∑ n : Fin 1024, (if BitVec.ofNat 32 r.val = BitVec.ofNat 32 n.val + base k then (1 : EReal) else 0) * f n)
      = if h : k.val * 1024 ≤ r.val ∧ r.val < (k.val + 1) * 1024 then f ⟨r.val - k.val * 1024, by omega⟩ else 0 := by
  have hk := trips_lt k
  have hr := r.isLt
  have hw : ∀ n : Fin 1024, (BitVec.ofNat 32 r.val = BitVec.ofNat 32 n.val + base k) ↔ r.val = n.val + k.val * 1024 := by
    intro n
    have hn := n.isLt
    rw [base_eq, ← BitVec.ofNat_add]
    exact ofNat_eq_iff _ _ (by omega) (by omega)
  by_cases h : k.val * 1024 ≤ r.val ∧ r.val < (k.val + 1) * 1024
  · rw [dif_pos h]
    rw [Finset.sum_eq_single (⟨r.val - k.val * 1024, by omega⟩ : Fin 1024)]
    · rw [if_pos ((hw _).mpr (by show r.val = r.val - k.val * 1024 + k.val * 1024; omega)), one_mul]
    · intro n _ hne
      rw [if_neg (fun he => hne (Fin.ext (by have := (hw n).mp he; show n.val = r.val - k.val * 1024; omega))), zero_mul]
    · intro hn; exact absurd (Finset.mem_univ _) hn
  · rw [dif_neg h]
    refine Finset.sum_eq_zero fun n _ => ?_
    rw [if_neg (fun he => h (by have := (hw n).mp he; have := n.isLt; omega)), zero_mul]

/-- ONE TRIP AT `((q, s), l)`: when the low table's chunk is zero and slot `s` of query `q` names row `r`, the trip adds
    to the accumulator lane `l` of row `r` of the high table if that row lies in the trip's chunk, and nothing otherwise. -/
theorem pay3_gather (v0 : Vec Ideal S1x128x16 .i32) (k : Fin k0_t1_loop.trips) (v60 v63 : Vec Ideal S1x1024x128 .bf16) (v65 : Vec Ideal S2048x128 .f32)
    (hlo : ∀ y, v63 y = 0) (q : Fin 128) (s : Fin 16) (l : Fin 128) (r : Fin 16384) (hr : v0 (ix3 (0 : Fin 1) q s) = BitVec.ofNat 32 r.val) :
    k0_pay3 (F := Ideal) v0 k v60 v63 v65 (ix2 (⟨q.val * 16 + s.val, by have := q.isLt; have := s.isLt; omega⟩ : Fin 2048) l)
      = v65 (ix2 (⟨q.val * 16 + s.val, by have := q.isLt; have := s.isLt; omega⟩ : Fin 2048) l)
        + (if h : k.val * 1024 ≤ r.val ∧ r.val < (k.val + 1) * 1024 then v60 (ix3 (0 : Fin 1) (⟨r.val - k.val * 1024, by omega⟩ : Fin 1024) l) else 0) := by
  rw [pay3_unfold, shapeCast_self, addf_apply, addf_apply, matmul_at, matmul_at]
  have hlow : (∑ n : Fin 1024, onehot v0 k (ix2 (⟨q.val * 16 + s.val, by have := q.isLt; have := s.isLt; omega⟩ : Fin 2048) n) * chunk v63 (ix2 n l)) = 0 :=
    Finset.sum_eq_zero fun n _ => by rw [chunk_apply, hlo, mul_zero]
  rw [hlow, add_zero]
  refine congrArg (v65 _ + ·) ?_
  have hsum : (∑ n : Fin 1024, onehot v0 k (ix2 (⟨q.val * 16 + s.val, by have := q.isLt; have := s.isLt; omega⟩ : Fin 2048) n) * chunk v60 (ix2 n l))
      = ∑ n : Fin 1024, (if BitVec.ofNat 32 r.val = BitVec.ofNat 32 n.val + base k then (1 : EReal) else 0) * v60 (ix3 (0 : Fin 1) n l) :=
    Finset.sum_congr rfl fun n _ => by rw [onehot_apply, chunk_apply, hr]
  rw [hsum]
  exact select_sum k r (fun n => v60 (ix3 (0 : Fin 1) n l))

end Cert.KernelIdeal.PayTrip

end
-- ==== Proof.LoopGather.lean ====
/-
  The gather loop at the extended reals: after the sixteen trips, row q·16 + s of the accumulator is row r of the high
  table block, where r is the row the index word of query q, slot s names — provided the low table block is zero.

  Invariant: after k trips the row holds the table's row r if r < k·1024 (the chunks scanned so far contain it) and
  zero otherwise; trip k adds the row exactly when k·1024 ≤ r < (k+1)·1024.
-/
import proofs.«404029_j65532611002531_3_alg».proof.Proof.Body
import proofs.«404029_j65532611002531_3_alg».proof.Proof.KernelPayTrip

set_option maxRecDepth 16384

noncomputable section

namespace Cert.KernelIdeal.LoopGather

open Cert.KernelIdeal Cert.KernelIdeal.Gen Cert.KernelIdeal.LoopValue Cert.KernelIdeal.Body Idealize.ShloMosaic Idealize.ShloMosaic.TcCoe Idealize.SL.Sem
open Idealize.ShloMosaic.ValueIdx

/-- The zero fill at an index is zero. -/
theorem pay2_apply (y : S2048x128.Idx) : k0_pay2 (F := Ideal) y = 0 := by
  unfold k0_pay2
  rw [shapeCast_self]
  show Ideal.ofBits .f32 0x00000000#32 = 0
  exact Ideal.ofBits_zero_f32

/-- Row `n` of the chunk trip `k` loads is row `k·1024 + n` of the table block. -/
theorem chunk_idx (k : Fin k0_t1_loop.trips) (n : Fin 1024) (l : Fin 128) (hn : 1024 * k.val + n.val < 16384) :
    (chunk k).idx (ix3 (0 : Fin 1) n l) = ix3 (0 : Fin 1) (⟨1024 * k.val + n.val, hn⟩ : Fin 16384) l := by
  funext a
  refine Fin.ext ?_
  have e := k0_off1_eq k
  match a with
  | ⟨0, _⟩ => show (k0_off1 k) 0 + 1 * 0 = 0; rw [e]; rfl
  | ⟨1, _⟩ => show (k0_off1 k) 1 + 1 * n.val = 1024 * k.val + n.val; rw [e]; simp
  | ⟨2, _⟩ => show (k0_off1 k) 2 + 1 * l.val = l.val; rw [e]; simp

variable (c : Dev nD) (i : grid0.Coords) (arg2 : Memref sig .tc .vmem S1x128x3 .f32) (harg2 : arg2.IsWhole) (arg3 : Memref sig .tc .vmem S1x16384x128 .bf16) (harg3 : arg3.IsWhole) (arg4 : Memref sig .tc .vmem S1x16384x128 .bf16) (harg4 : arg4.IsWhole) (arg5 : Memref sig .tc .vmem S1x128x16 .i32) (harg5 : arg5.IsWhole) (arg6 : Memref sig .tc .vmem S4x64 .f32) (harg6 : arg6.IsWhole) (arg7 : Memref sig .tc .vmem S64 .f32) (harg7 : arg7.IsWhole) (arg8 : Memref sig .tc .vmem S1x128x128 .f32) (harg8 : arg8.IsWhole) (arg9 : Memref sig .tc .vmem S2048x128 .f32) (harg9 : arg9.IsWhole)
  (x1 x2 : Vec Ideal S1x16384x128 .bf16) (x3 : Vec Ideal S1x128x16 .i32)

/-- THE INVARIANT of the gather loop. -/
theorem accAt_inv (hlo : ∀ y, x2 y = 0) (q : Fin 128) (s : Fin 16) (l : Fin 128) (r : Fin 16384)
    (hr : x3 (ix3 (0 : Fin 1) q s) = BitVec.ofNat 32 r.val) :
    ∀ k : ℕ, k ≤ k0_t1_loop.trips →
      accAt (F := Ideal) Variants.none c none i arg2 harg2 arg3 harg3 arg4 harg4 arg5 harg5 arg6 harg6 arg7 harg7 arg8 harg8 arg9 harg9 x3 (harg3.unread x1) (harg4.unread x2) (zeroFill arg9) k
          (ix2 (⟨q.val * 16 + s.val, by have := q.isLt; have := s.isLt; omega⟩ : Fin 2048) l)
        = if r.val < k * 1024 then x1 (ix3 (0 : Fin 1) r l) else 0 := by
  intro k
  induction k with
  | zero =>
    intro _
    rw [accAt_zero]
    unfold zeroFill
    rw [read_writes_whole, pay2_apply]
    simp
  | succ k ih =>
    intro hk
    have hk' : k < k0_t1_loop.trips := hk
    have ih' := ih (Nat.le_of_lt hk')
    have h16 : k < 16 := Cert.KernelIdeal.PayTrip.trips_lt ⟨k, hk'⟩
    have hs := accAt_succ (F := Ideal) Variants.none c none i arg2 harg2 arg3 harg3 arg4 harg4 arg5 harg5 arg6 harg6 arg7 harg7 arg8 harg8 arg9 harg9 x3 (harg3.unread x1) (harg4.unread x2) (zeroFill arg9) ⟨k, hk'⟩
    rw [show k + 1 = (⟨k, hk'⟩ : Fin k0_t1_loop.trips).val + 1 from rfl, hs]
    have hlo' : ∀ y, View.readAt (Elt Ideal) arg4.view (chunk ⟨k, hk'⟩).toLoadRect (harg4.unread x2) y = 0 := by
      intro y
      rw [View.readAt_eq_ld, harg4.read_unread]
      exact hlo _
    rw [Cert.KernelIdeal.PayTrip.pay3_gather x3 ⟨k, hk'⟩ _ _ _ hlo' q s l r hr, ih']
    have hrlt := r.isLt
    by_cases h1 : r.val < k * 1024
    · have h2 : ¬ (k * 1024 ≤ r.val ∧ r.val < (k + 1) * 1024) := by omega
      have h3 : r.val < (k + 1) * 1024 := by omega
      rw [if_pos h1, dif_neg h2, if_pos h3, add_zero]
    · by_cases h2 : r.val < (k + 1) * 1024
      · have h4 : k * 1024 ≤ r.val ∧ r.val < (k + 1) * 1024 := ⟨by omega, h2⟩
        rw [if_neg h1, dif_pos h4, if_pos h2, zero_add, View.readAt_eq_ld, harg3.read_unread]
        show x1 ((chunk ⟨k, hk'⟩).idx _) = _
        rw [chunk_idx ⟨k, hk'⟩ _ l (by show 1024 * k + (r.val - k * 1024) < 16384; omega)]
        congr 2
        exact Fin.ext (by show 1024 * k + (r.val - k * 1024) = r.val; omega)
      · have h4 : ¬ (k * 1024 ≤ r.val ∧ r.val < (k + 1) * 1024) := by omega
        rw [if_neg h1, dif_neg h4, if_neg h2, add_zero]

/-- AFTER THE LOOP: the accumulator's row for query `q`, slot `s` is the table block's row `r`. -/
theorem accEnd_gather (hlo : ∀ y, x2 y = 0) (q : Fin 128) (s : Fin 16) (l : Fin 128) (r : Fin 16384)
    (hr : x3 (ix3 (0 : Fin 1) q s) = BitVec.ofNat 32 r.val) :
    accEnd (F := Ideal) c i arg2 harg2 arg3 harg3 arg4 harg4 arg5 harg5 arg6 harg6 arg7 harg7 arg8 harg8 arg9 harg9 x1 x2 x3
        (ix2 (⟨q.val * 16 + s.val, by have := q.isLt; have := s.isLt; omega⟩ : Fin 2048) l)
      = x1 (ix3 (0 : Fin 1) r l) := by
  have h := accAt_inv c i arg2 harg2 arg3 harg3 arg4 harg4 arg5 harg5 arg6 harg6 arg7 harg7 arg8 harg8 arg9 harg9 x1 x2 x3 hlo q s l r hr
    (Scf.trips k0_t1_loop.lb k0_t1_loop.ub k0_t1_loop.st) (Nat.le_refl _)
  have ht : (Scf.trips k0_t1_loop.lb k0_t1_loop.ub k0_t1_loop.st) = 16 := by decide
  refine h.trans ?_
  rw [ht, if_pos (by have := r.isLt; omega)]

end Cert.KernelIdeal.LoopGather

end
-- ==== Proof.Spec.lean ====
/-
  The common value of both programs, index by index, over the extended reals.

  Inputs: point coordinates `P : [4, 16384, 3]`, point features `Ft : [4, 16384, 64]`, neighbour indices
  `I : [4, 16384, 16]` (32-bit words), a weight matrix `W : [4, 64]` and a bias `B : [64]`.
  For batch `b`, query point `n` and neighbour slot `k`, the neighbour is the point in row `row I b n k` of batch `b`
  (the index word read signed and clamped into `[0, 16383]`). With `rel = P[b, n, :] - P[b, row, :]`,
  `dist = sqrt (Σ_d rel_d²)`, `geo = (rel_0, rel_1, rel_2, dist)`, `pre_f = Σ_c geo_c · W[c, f] + B[f]`,
  `leaky x = x` for `x > 0` and `x · slope` otherwise, the result at `(b, n, l)` is the mean over the 16 neighbour
  slots of `leaky pre_l` for `l < 64` and of the neighbour's feature `Ft[b, row, l - 64]` for `l ≥ 64`; the mean is
  the sum times the word `0x3D800000` (one sixteenth).

  `table` is the gather table the kernel's program builds before its region: points and features side by side,
  padded with zeros to 128 lanes.
-/
import Idealize.ShloMosaic.PureOps.Ideal
import Idealize.ShloMosaic.Lib.ValueIdx

noncomputable section

open scoped BigOperators

namespace LFA

open Idealize.ShloMosaic Idealize.ShloMosaic.ValueIdx

abbrev SP : Shape := ⟨3, ![4, 16384, 3]⟩
abbrev SF : Shape := ⟨3, ![4, 16384, 64]⟩
abbrev SI : Shape := ⟨3, ![4, 16384, 16]⟩
abbrev SW : Shape := ⟨2, ![4, 64]⟩
abbrev SB : Shape := ⟨1, ![64]⟩
abbrev SO : Shape := ⟨3, ![4, 16384, 128]⟩

/-- The slope of the leaky rectifier: the f32 word nearest 0.2, the same word in both programs. -/
abbrev slope : EReal := Ideal.ofBits .f32 0x3E4CCCCD#32

/-- One sixteenth, as the word the kernel multiplies the sum by. -/
abbrev sixteenth : EReal := Ideal.ofBits .f32 0x3D800000#32

/-- The row an index word names: read signed, clamped into `[0, 16383]`. -/
def rowOf (w : BitVec 32) : Fin 16384 := ⟨min w.toInt.toNat 16383, by omega⟩

/-- The neighbour's row for batch `b`, query `n`, slot `k`. -/
def row (I : SI.Idx → BitVec 32) (b : Fin 4) (n : Fin 16384) (k : Fin 16) : Fin 16384 := rowOf (I (ix3 b n k))

/-- Relative position of the query to its neighbour, coordinate `d`. -/
def rel (P : SP.Idx → EReal) (I : SI.Idx → BitVec 32) (b : Fin 4) (n : Fin 16384) (k : Fin 16) (d : Fin 3) : EReal :=
  P (ix3 b n d) - P (ix3 b (row I b n k) d)

/-- Euclidean distance of the query to its neighbour. -/
def dist (P : SP.Idx → EReal) (I : SI.Idx → BitVec 32) (b : Fin 4) (n : Fin 16384) (k : Fin 16) : EReal :=
  Ideal.sqrt (∑ d : Fin 3, rel P I b n k d * rel P I b n k d)

/-- The four geometric features: the relative position, then the distance. -/
def geo (P : SP.Idx → EReal) (I : SI.Idx → BitVec 32) (b : Fin 4) (n : Fin 16384) (k : Fin 16) (c : Fin 4) : EReal :=
  if h : c.val < 3 then rel P I b n k ⟨c.val, h⟩ else dist P I b n k

/-- The linear layer on the geometric features. -/
def pre (P : SP.Idx → EReal) (I : SI.Idx → BitVec 32) (W : SW.Idx → EReal) (B : SB.Idx → EReal)
    (b : Fin 4) (n : Fin 16384) (k : Fin 16) (f : Fin 64) : EReal :=
  (∑ c : Fin 4, geo P I b n k c * W (ix2 c f)) + B (ix1 f)

/-- The leaky rectifier. -/
def leaky (x : EReal) : EReal := if 0 < x then x else x * slope

/-- Lane `l` of the concatenation for one neighbour slot: the rectified linear layer, then the neighbour's features. -/
def cat (P : SP.Idx → EReal) (Ft : SF.Idx → EReal) (I : SI.Idx → BitVec 32) (W : SW.Idx → EReal) (B : SB.Idx → EReal)
    (b : Fin 4) (n : Fin 16384) (k : Fin 16) (l : Fin 128) : EReal :=
  if h : l.val < 64 then leaky (pre P I W B b n k ⟨l.val, h⟩)
  else Ft (ix3 b (row I b n k) ⟨l.val - 64, by omega⟩)

/-- THE RESULT: the mean over the neighbour slots. -/
def out (P : SP.Idx → EReal) (Ft : SF.Idx → EReal) (I : SI.Idx → BitVec 32) (W : SW.Idx → EReal) (B : SB.Idx → EReal) :
    SO.Idx → EReal :=
  fun j => (∑ k : Fin 16, cat P Ft I W B (j 0) (j 1) k (j 2)) * sixteenth

/-- The gather table: lanes 0–2 the point, lanes 3–66 its features, lanes 67–127 zero. -/
def table (P : SP.Idx → EReal) (Ft : SF.Idx → EReal) : SO.Idx → EReal :=
  fun j =>
    if h : (j 2).val < 3 then P (ix3 (j 0) (j 1) ⟨(j 2).val, h⟩)
    else if h' : (j 2).val < 67 then Ft (ix3 (j 0) (j 1) ⟨(j 2).val - 3, by omega⟩)
    else 0

/-! ## The same value for one block of 128 query points

`p q d` is coordinate `d` of query `q` of the block; `g q k lane` is lane `lane` of the table row gathered for query `q`
and neighbour slot `k` (lanes 0–2 the neighbour's position, lanes 3–66 its features). -/

def relB (p : Fin 128 → Fin 3 → EReal) (g : Fin 128 → Fin 16 → Fin 128 → EReal) (q : Fin 128) (k : Fin 16) (d : Fin 3) : EReal :=
  p q d - g q k ⟨d.val, by omega⟩

def distB (p : Fin 128 → Fin 3 → EReal) (g : Fin 128 → Fin 16 → Fin 128 → EReal) (q : Fin 128) (k : Fin 16) : EReal :=
  Ideal.sqrt (∑ d : Fin 3, relB p g q k d * relB p g q k d)

def geoB (p : Fin 128 → Fin 3 → EReal) (g : Fin 128 → Fin 16 → Fin 128 → EReal) (q : Fin 128) (k : Fin 16) (c : Fin 4) : EReal :=
  if h : c.val < 3 then relB p g q k ⟨c.val, h⟩ else distB p g q k

def preB (p : Fin 128 → Fin 3 → EReal) (g : Fin 128 → Fin 16 → Fin 128 → EReal) (W : SW.Idx → EReal) (B : SB.Idx → EReal)
    (q : Fin 128) (k : Fin 16) (f : Fin 64) : EReal :=
  (∑ c : Fin 4, geoB p g q k c * W (ix2 c f)) + B (ix1 f)

def catB (p : Fin 128 → Fin 3 → EReal) (g : Fin 128 → Fin 16 → Fin 128 → EReal) (W : SW.Idx → EReal) (B : SB.Idx → EReal)
    (q : Fin 128) (k : Fin 16) (l : Fin 128) : EReal :=
  if h : l.val < 64 then leaky (preB p g W B q k ⟨l.val, h⟩)
  else g q k ⟨l.val - 64 + 3, by omega⟩

/-- The block's result at query `q`, lane `l`. -/
def outB (p : Fin 128 → Fin 3 → EReal) (g : Fin 128 → Fin 16 → Fin 128 → EReal) (W : SW.Idx → EReal) (B : SB.Idx → EReal)
    (q : Fin 128) (l : Fin 128) : EReal :=
  (∑ k : Fin 16, catB p g W B q k l) * sixteenth

end LFA

end
-- ==== Proof.KernelPayOut.lean ====
/-
  The kernel body's last payload read at an index.

  After its loop the body holds, in its accumulator scratch `acc : [2048, 128]`, the gathered table rows: row
  `q·16 + k` is the row gathered for query `q` of the block and neighbour slot `k` (lanes 0–2 the neighbour's
  position, lanes 3–66 its features). From it, the query block `x0 : [1, 128, 3]`, the weights `W : [4, 64]` and the
  bias `B : [64]` it computes, slot by slot, the relative position, its Euclidean length, the linear layer on those four
  numbers, the leaky rectifier, the concatenation with the neighbour's features, and the sum over the sixteen slots
  times one sixteenth. Each stage is read here at an index, over coordinates of literal extents; the last theorem says
  the stored block at `(0, q, l)` is `LFA.outB` at `(q, l)`.
-/
import proofs.«404029_j65532611002531_3_alg».proof.Proof.Gen.KernelIdeal.Skeleton
import proofs.«404029_j65532611002531_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayOut

open Idealize.ShloMosaic Idealize.ShloMosaic.ValueIdx Cert.KernelIdeal Cert.KernelIdeal.Gen

/-- The query block by coordinates: coordinate `d` of query `q`. -/
abbrev P (x0 : Vec Ideal S1x128x3 .f32) : Fin 128 → Fin 3 → EReal :=
  fun q d => x0 (ix3 (0 : Fin 1) q d)

/-- The gathered rows by coordinates: lane `lane` of the row for query `q`, slot `k` (row `q·16 + k` of the scratch). -/
abbrev G (acc : Vec Ideal S2048x128 .f32) : Fin 128 → Fin 16 → Fin 128 → EReal :=
  fun q k lane => acc (ix2 (⟨q.val * 16 + k.val, by have := q.isLt; have := k.isLt; omega⟩ : Fin 2048) lane)

/-- A row of the scratch named by its number is the row named by query and slot. -/
theorem G_row (acc : Vec Ideal S2048x128 .f32) (q : Fin 128) (k : Fin 16) (lane : Fin 128) (r : Fin 2048)
    (hr : r.val = q.val * 16 + k.val) : acc (ix2 r lane) = G acc q k lane := by
  have : r = (⟨q.val * 16 + k.val, by have := q.isLt; have := k.isLt; omega⟩ : Fin 2048) := Fin.ext hr
  rw [this]

/-! ## The scratch viewed `[128, 16, 128]`, and its two lane windows -/

/-- The scratch viewed by query and slot. -/
theorem pay4_apply (acc : Vec Ideal S2048x128 .f32) (q : Fin 128) (k : Fin 16) (lane : Fin 128) :
    k0_pay4 acc (ix3 q k lane) = G acc q k lane := by
  unfold k0_pay4
  refine shapeCast_apply _ _ (ix3 q k lane) (ix2 (⟨q.val * 16 + k.val, by have := q.isLt; have := k.isLt; omega⟩ : Fin 2048) lane) ?_
  rw [Shape.rowMajor_val_two, Shape.rowMajor_val_three]
  show (q.val * 16 + k.val) * 128 + lane.val = (q.val * 16 + k.val) * 128 + lane.val
  rfl

/-- The neighbour's features: lanes 3 to 66 of the gathered row. -/
theorem pay5_apply (acc : Vec Ideal S2048x128 .f32) (q : Fin 128) (k : Fin 16) (f : Fin 64) :
    k0_pay5 acc (ix3 q k f) = G acc q k ⟨f.val + 3, by omega⟩ := by
  unfold k0_pay5
  refine (extractStridedSlice_apply _ _ _ (ix3 q k f) (ix3 q k (⟨f.val + 3, by omega⟩ : Fin 128)) ?_).trans
    (pay4_apply acc q k _)
  intro a
  match a with
  | ⟨0, _⟩ => show q.val = 0 + q.val; omega
  | ⟨1, _⟩ => show k.val = 0 + k.val; omega
  | ⟨2, _⟩ => show f.val + 3 = 3 + f.val; omega

/-- The neighbour's position: lanes 0 to 2 of the gathered row. -/
def nbrPos (acc : Vec Ideal S2048x128 .f32) : FVec Ideal S128x16x3 .f32 :=
  extractStridedSlice S128x16x3 ![0, 0, 0] (k0_pay4 acc) slices_S128x16x128_o0_0_0_S128x16x3

theorem nbrPos_apply (acc : Vec Ideal S2048x128 .f32) (q : Fin 128) (k : Fin 16) (d : Fin 3) :
    nbrPos acc (ix3 q k d) = G acc q k ⟨d.val, by omega⟩ := by
  unfold nbrPos
  refine (extractStridedSlice_apply _ _ _ (ix3 q k d) (ix3 q k (⟨d.val, by omega⟩ : Fin 128)) ?_).trans
    (pay4_apply acc q k _)
  intro a
  match a with
  | ⟨0, _⟩ => show q.val = 0 + q.val; omega
  | ⟨1, _⟩ => show k.val = 0 + k.val; omega
  | ⟨2, _⟩ => show d.val = 0 + d.val; omega

/-! ## The query's position spread over the sixteen slots -/

def qryPos (x0 : Vec Ideal S1x128x3 .f32) : FVec Ideal S128x16x3 .f32 :=
  broadcastTo S128x16x3 (shapeCast S128x1x3 (shapeCast S128x3 x0 shapeCasts_S1x128x3_S128x3) shapeCasts_S128x3_S128x1x3)
    broadcasts_S128x1x3_S128x16x3

theorem qryPos_apply (x0 : Vec Ideal S1x128x3 .f32) (q : Fin 128) (k : Fin 16) (d : Fin 3) :
    qryPos x0 (ix3 q k d) = P x0 q d := by
  unfold qryPos
  refine (broadcastTo_apply _ _ (ix3 q k d) (ix3 q (0 : Fin 1) d) ?_).trans ?_
  · intro a
    match a with
    | ⟨0, _⟩ => rfl
    | ⟨1, _⟩ => rfl
    | ⟨2, _⟩ => rfl
  refine (shapeCast_apply _ _ (ix3 q (0 : Fin 1) d) (ix2 q d) ?_).trans ?_
  · rw [Shape.rowMajor_val_two, Shape.rowMajor_val_three]
    show q.val * 3 + d.val = (q.val * 1 + 0) * 3 + d.val
    omega
  exact shapeCast_1ab_ab_apply x0 _ q d

/-! ## The relative position, its squared length and its length -/

def relV (acc : Vec Ideal S2048x128 .f32) (x0 : Vec Ideal S1x128x3 .f32) : FVec Ideal S128x16x3 .f32 :=
  subf (qryPos x0) (nbrPos acc)

theorem relV_apply (acc : Vec Ideal S2048x128 .f32) (x0 : Vec Ideal S1x128x3 .f32) (q : Fin 128) (k : Fin 16) (d : Fin 3) :
    relV acc x0 (ix3 q k d) = LFA.relB (P x0) (G acc) q k d := by
  unfold relV
  rw [subf_apply, qryPos_apply, nbrPos_apply]
  rfl

/-- A sum over the last axis of a `[128, 16, 3]` array, at `(q, k)`. -/
theorem sum3_apply (v : FVec Ideal S128x16x3 .f32) (q : Fin 128) (k : Fin 16) :
    multiReduction (F := Ideal) .add [2] S128x16 v 0x00000000#32 reduces_S128x16x3_S128x16 (.inl rfl) rfl (ix2 q k)
      = ∑ d : Fin 3, v (ix3 q k d) := by
  refine (Ideal.multiReduction_add_single v 0x00000000#32 reduces_S128x16x3_S128x16 (.inl rfl) rfl (ix2 q k)).trans ?_
  refine Finset.sum_congr rfl fun d _ => congrArg v ?_
  funext a
  match a with
  | ⟨0, _⟩ => rfl
  | ⟨1, _⟩ => rfl
  | ⟨2, _⟩ => rfl

def distV (acc : Vec Ideal S2048x128 .f32) (x0 : Vec Ideal S1x128x3 .f32) : FVec Ideal S128x16x1 .f32 :=
  sqrt (shapeCast S128x16x1
    (multiReduction (F := Ideal) .add [2] S128x16 (mulf (relV acc x0) (relV acc x0)) 0x00000000#32 reduces_S128x16x3_S128x16 (.inl rfl) rfl)
    shapeCasts_S128x16_S128x16x1)

theorem distV_apply (acc : Vec Ideal S2048x128 .f32) (x0 : Vec Ideal S1x128x3 .f32) (q : Fin 128) (k : Fin 16) (u : Fin 1) :
    distV acc x0 (ix3 q k u) = LFA.distB (P x0) (G acc) q k := by
  unfold distV
  show Ideal.sqrt (shapeCast S128x16x1 _ shapeCasts_S128x16_S128x16x1 (ix3 q k u)) = _
  have hu : u.val = 0 := by omega
  rw [shapeCast_apply _ shapeCasts_S128x16_S128x16x1 (ix3 q k u) (ix2 q k) (by
    rw [Shape.rowMajor_val_two, Shape.rowMajor_val_three]
    show q.val * 16 + k.val = (q.val * 16 + k.val) * 1 + u.val
    omega)]
  rw [sum3_apply]
  unfold LFA.distB
  refine congrArg Ideal.sqrt (Finset.sum_congr rfl fun d _ => ?_)
  rw [mulf_apply, relV_apply]

/-! ## The four geometric features, per slot and then per scratch row -/

def geoV (acc : Vec Ideal S2048x128 .f32) (x0 : Vec Ideal S1x128x3 .f32) : FVec Ideal S128x16x4 .f32 :=
  concatenate S128x16x4 2 [⟨S128x16x3, relV acc x0⟩, ⟨S128x16x1, distV acc x0⟩] concatenates_S128x16x3_S128x16x1_S128x16x4_d2

theorem geoV_apply (acc : Vec Ideal S2048x128 .f32) (x0 : Vec Ideal S1x128x3 .f32) (q : Fin 128) (k : Fin 16) (c : Fin 4) :
    geoV acc x0 (ix3 q k c) = LFA.geoB (P x0) (G acc) q k c := by
  unfold geoV LFA.geoB
  by_cases h : c.val < 3
  · rw [dif_pos h]
    refine (concatenate_pair_apply_left (s₁ := S128x16x3) (s₂ := S128x16x1) _ _ _ _ (ix3 q k c) rfl (ix3 q k (⟨c.val, h⟩ : Fin 3)) ?_).trans
      (relV_apply acc x0 q k _)
    intro b
    match b with
    | ⟨0, _⟩ => rfl
    | ⟨1, _⟩ => rfl
    | ⟨2, _⟩ => rfl
  · rw [dif_neg h]
    refine (concatenate_pair_apply_right (s₁ := S128x16x3) (s₂ := S128x16x1) _ _ _ _ (ix3 q k c) rfl rfl (ix3 q k (0 : Fin 1)) ?_ ?_).trans
      (distV_apply acc x0 q k _)
    · intro b hb
      match b, hb with
      | ⟨0, _⟩, _ => rfl
      | ⟨1, _⟩, _ => rfl
      | ⟨2, _⟩, hb => exact absurd rfl hb
    · show 0 + 3 = c.val
      have := c.isLt
      omega

/-- The features laid out one scratch row per (query, slot), in the matmul's operand format. -/
def lhsV (acc : Vec Ideal S2048x128 .f32) (x0 : Vec Ideal S1x128x3 .f32) : FVec Ideal S2048x4 .bf16 :=
  truncf .bf16 (shapeCast S2048x4 (geoV acc x0) shapeCasts_S128x16x4_S2048x4) bitsLt_bf16_f32

theorem lhsV_apply (acc : Vec Ideal S2048x128 .f32) (x0 : Vec Ideal S1x128x3 .f32) (q : Fin 128) (k : Fin 16) (c : Fin 4)
    (r : Fin 2048) (hr : r.val = q.val * 16 + k.val) :
    lhsV acc x0 (ix2 r c) = LFA.geoB (P x0) (G acc) q k c := by
  unfold lhsV
  rw [truncf_apply]
  refine (shapeCast_apply _ _ (ix2 r c) (ix3 q k c) ?_).trans (geoV_apply acc x0 q k c)
  rw [Shape.rowMajor_val_two, Shape.rowMajor_val_three]
  show (q.val * 16 + k.val) * 4 + c.val = r.val * 4 + c.val
  rw [hr]

/-! ## The linear layer: a `[2048, 4] × [4, 64]` product into zero, plus the bias row -/

theorem lhs_mm_0 (i : S2048x64.Idx) (t : dot_S2048x4_S4x64_S2048x64_1_0_0_1_n_n.contr.Idx) :
    (dot_S2048x4_S4x64_S2048x64_1_0_0_1_n_n.lhsIdx i t 0).val = (i 0).val := by
  unfold DotDims.lhsIdx
  rw [dif_neg (show ¬(0 : Fin S2048x4.rank) ∈ dot_S2048x4_S4x64_S2048x64_1_0_0_1_n_n.lhsBatch by decide),
    dif_pos (show (0 : Fin S2048x4.rank) ∈ dot_S2048x4_S4x64_S2048x64_1_0_0_1_n_n.lhsNonContracting by decide)]
  rfl

theorem lhs_mm_1 (i : S2048x64.Idx) (t : dot_S2048x4_S4x64_S2048x64_1_0_0_1_n_n.contr.Idx) :
    (dot_S2048x4_S4x64_S2048x64_1_0_0_1_n_n.lhsIdx i t 1).val = (t ⟨0, by decide⟩).val :=
  dot_S2048x4_S4x64_S2048x64_1_0_0_1_n_n.lhsIdx_val_of_single rfl i t

theorem rhs_mm_0 (i : S2048x64.Idx) (t : dot_S2048x4_S4x64_S2048x64_1_0_0_1_n_n.contr.Idx) :
    (dot_S2048x4_S4x64_S2048x64_1_0_0_1_n_n.rhsIdx i t 0).val = (t ⟨0, by decide⟩).val :=
  dot_S2048x4_S4x64_S2048x64_1_0_0_1_n_n.rhsIdx_val_of_single rfl i t

theorem rhs_mm_1 (i : S2048x64.Idx) (t : dot_S2048x4_S4x64_S2048x64_1_0_0_1_n_n.contr.Idx) :
    (dot_S2048x4_S4x64_S2048x64_1_0_0_1_n_n.rhsIdx i t 1).val = (i 1).val := by
  unfold DotDims.rhsIdx
  rw [dif_neg (show ¬(1 : Fin S4x64.rank) ∈ dot_S2048x4_S4x64_S2048x64_1_0_0_1_n_n.rhsBatch by decide),
    dif_pos (show (1 : Fin S4x64.rank) ∈ dot_S2048x4_S4x64_S2048x64_1_0_0_1_n_n.rhsNonContracting by decide)]
  rfl

/-- The product at `(r, f)`: the sum over the four features. -/
theorem mm_apply (A : FVec Ideal S2048x4 .bf16) (B : FVec Ideal S4x64 .bf16) (r : Fin 2048) (f : Fin 64) :
    matmul dot_S2048x4_S4x64_S2048x64_1_0_0_1_n_n none A B (constant (F := Ideal) S2048x64 .f32 0x00000000#32) (ix2 r f)
      = ∑ c : Fin 4, A (ix2 r c) * B (ix2 c f) := by
  show FloatOps.matmul dot_S2048x4_S4x64_S2048x64_1_0_0_1_n_n none A B _ (ix2 r f) = _
  rw [Ideal.matmul_constant_zero_apply,
    ← Equiv.sum_comp (contrEquiv1 dot_S2048x4_S4x64_S2048x64_1_0_0_1_n_n 4 rfl rfl).symm]
  refine Finset.sum_congr rfl fun c _ => ?_
  have hk := contrEquiv1_symm_val dot_S2048x4_S4x64_S2048x64_1_0_0_1_n_n 4 rfl rfl c
  have el : dot_S2048x4_S4x64_S2048x64_1_0_0_1_n_n.lhsIdx (ix2 r f)
      ((contrEquiv1 dot_S2048x4_S4x64_S2048x64_1_0_0_1_n_n 4 rfl rfl).symm c) = ix2 r c :=
    funext fun a => Fin.ext (by
      match a with
      | ⟨0, _⟩ => exact lhs_mm_0 _ _
      | ⟨1, _⟩ => exact (lhs_mm_1 _ _).trans hk)
  have er : dot_S2048x4_S4x64_S2048x64_1_0_0_1_n_n.rhsIdx (ix2 r f)
      ((contrEquiv1 dot_S2048x4_S4x64_S2048x64_1_0_0_1_n_n 4 rfl rfl).symm c) = ix2 c f :=
    funext fun a => Fin.ext (by
      match a with
      | ⟨0, _⟩ => exact (rhs_mm_0 _ _).trans hk
      | ⟨1, _⟩ => exact rhs_mm_1 _ _)
  rw [el, er]

/-- The bias spread over the scratch rows. -/
def biasV (x5 : Vec Ideal S64 .f32) : FVec Ideal S2048x64 .f32 :=
  broadcastTo S2048x64 (shapeCast S1x64 x5 shapeCasts_S64_S1x64) broadcasts_S1x64_S2048x64

theorem biasV_apply (x5 : Vec Ideal S64 .f32) (r : Fin 2048) (f : Fin 64) : biasV x5 (ix2 r f) = x5 (ix1 f) := by
  unfold biasV
  exact (broadcastTo_1b_ab_apply _ _ r f).trans (shapeCast_a_1a_apply x5 _ (0 : Fin 1) f)

/-- The layer's payload is the product plus the bias. -/
theorem pay6_eq (acc : Vec Ideal S2048x128 .f32) (x0 : Vec Ideal S1x128x3 .f32) (x4 : Vec Ideal S4x64 .f32) (x5 : Vec Ideal S64 .f32) :
    k0_pay6 acc x0 x4 x5
      = addf (matmul dot_S2048x4_S4x64_S2048x64_1_0_0_1_n_n none (lhsV acc x0) (truncf .bf16 (x4 : FVec Ideal S4x64 .f32) bitsLt_bf16_f32)
          (constant (F := Ideal) S2048x64 .f32 0x00000000#32)) (biasV x5) := rfl

/-- The linear layer at scratch row `q·16 + k`, output feature `f`. -/
theorem pay6_apply (acc : Vec Ideal S2048x128 .f32) (x0 : Vec Ideal S1x128x3 .f32) (x4 : Vec Ideal S4x64 .f32) (x5 : Vec Ideal S64 .f32)
    (q : Fin 128) (k : Fin 16) (f : Fin 64) (r : Fin 2048) (hr : r.val = q.val * 16 + k.val) :
    k0_pay6 acc x0 x4 x5 (ix2 r f) = LFA.preB (P x0) (G acc) x4 x5 q k f := by
  rw [pay6_eq, addf_apply, mm_apply, biasV_apply]
  unfold LFA.preB
  refine congrArg (· + x5 (ix1 f)) (Finset.sum_congr rfl fun c _ => ?_)
  rw [lhsV_apply acc x0 q k c r hr, truncf_apply]

/-! ## The leaky rectifier: compare with zero, scale by the slope, select -/

theorem pay7_apply (acc : Vec Ideal S2048x128 .f32) (x0 : Vec Ideal S1x128x3 .f32) (x4 : Vec Ideal S4x64 .f32) (x5 : Vec Ideal S64 .f32)
    (i : S2048x64.Idx) :
    k0_pay7 acc x0 x4 x5 i = BitVec.ofBool (decide (0 < k0_pay6 acc x0 x4 x5 i)) := by
  unfold k0_pay7
  show Ideal.cmp .ogt (k0_pay6 acc x0 x4 x5 i) (Ideal.ofBits .f32 0x00000000#32) = _
  rw [Ideal.ofBits_zero_f32]
  rfl

theorem pay8_apply (acc : Vec Ideal S2048x128 .f32) (x0 : Vec Ideal S1x128x3 .f32) (x4 : Vec Ideal S4x64 .f32) (x5 : Vec Ideal S64 .f32)
    (i : S2048x64.Idx) :
    k0_pay8 acc x0 x4 x5 i = k0_pay6 acc x0 x4 x5 i * LFA.slope := rfl

/-- Selecting on "`x` is above zero" between `x` and `x` times the slope is the leaky rectifier. -/
theorem leaky_select (x : EReal) :
    Scalar.select (BitVec.ofBool (decide (0 < x))) x (x * LFA.slope) = LFA.leaky x := by
  unfold LFA.leaky Scalar.select
  by_cases h : 0 < x
  · simp [h]
  · simp [h]

/-! ## The concatenation with the neighbour's features, per scratch row -/

def catV (acc : Vec Ideal S2048x128 .f32) (x0 : Vec Ideal S1x128x3 .f32) (x4 : Vec Ideal S4x64 .f32) (x5 : Vec Ideal S64 .f32) :
    FVec Ideal S2048x128 .f32 :=
  concatenate S2048x128 1
    [⟨S2048x64, select (k0_pay7 acc x0 x4 x5) (k0_pay6 acc x0 x4 x5) (k0_pay8 acc x0 x4 x5)⟩,
     ⟨S2048x64, shapeCast S2048x64 (k0_pay5 acc) shapeCasts_S128x16x64_S2048x64⟩]
    concatenates_S2048x64_S2048x64_S2048x128_d1

theorem catV_apply (acc : Vec Ideal S2048x128 .f32) (x0 : Vec Ideal S1x128x3 .f32) (x4 : Vec Ideal S4x64 .f32) (x5 : Vec Ideal S64 .f32)
    (q : Fin 128) (k : Fin 16) (l : Fin 128) (r : Fin 2048) (hr : r.val = q.val * 16 + k.val) :
    catV acc x0 x4 x5 (ix2 r l) = LFA.catB (P x0) (G acc) x4 x5 q k l := by
  unfold catV LFA.catB
  by_cases h : l.val < 64
  · rw [dif_pos h]
    refine (concatenate_pair_apply_left (s₁ := S2048x64) (s₂ := S2048x64) _ _ _ _ (ix2 r l) rfl
      (ix2 r (⟨l.val, h⟩ : Fin 64)) ?_).trans ?_
    · intro b
      match b with
      | ⟨0, _⟩ => rfl
      | ⟨1, _⟩ => rfl
    rw [select_apply, pay7_apply, pay8_apply, pay6_apply acc x0 x4 x5 q k _ r hr]
    exact leaky_select _
  · rw [dif_neg h]
    have hl : l.val - 64 < 64 := by have := l.isLt; omega
    refine (concatenate_pair_apply_right (s₁ := S2048x64) (s₂ := S2048x64) _ _ _ _ (ix2 r l) rfl rfl
      (ix2 r (⟨l.val - 64, hl⟩ : Fin 64)) ?_ ?_).trans ?_
    · intro b hb
      match b, hb with
      | ⟨0, _⟩, _ => rfl
      | ⟨1, _⟩, hb => exact absurd rfl hb
    · show (l.val - 64) + 64 = l.val
      omega
    refine (shapeCast_apply _ _ (ix2 r (⟨l.val - 64, hl⟩ : Fin 64)) (ix3 q k (⟨l.val - 64, hl⟩ : Fin 64)) ?_).trans ?_
    · rw [Shape.rowMajor_val_two, Shape.rowMajor_val_three]
      show (q.val * 16 + k.val) * 64 + (l.val - 64) = r.val * 64 + (l.val - 64)
      rw [hr]
    rw [pay5_apply]

/-! ## The sum over the sixteen slots, times one sixteenth -/

/-- A sum over the middle axis of a `[128, 16, 128]` array, at `(q, l)`. -/
theorem sum16_apply (v : FVec Ideal S128x16x128 .f32) (q l : Fin 128) :
    multiReduction (F := Ideal) .add [1] S128x128 v 0x00000000#32 reduces_S128x16x128_S128x128 (.inl rfl) rfl (ix2 q l)
      = ∑ k : Fin 16, v (ix3 q k l) := by
  refine (Ideal.multiReduction_add_single v 0x00000000#32 reduces_S128x16x128_S128x128 (.inl rfl) rfl (ix2 q l)).trans ?_
  refine Finset.sum_congr rfl fun k _ => congrArg v ?_
  funext a
  match a with
  | ⟨0, _⟩ => rfl
  | ⟨1, _⟩ => rfl
  | ⟨2, _⟩ => rfl

/-- The last payload over the stages above. -/
theorem pay1_eq (acc : Vec Ideal S2048x128 .f32) (x0 : Vec Ideal S1x128x3 .f32) (x4 : Vec Ideal S4x64 .f32) (x5 : Vec Ideal S64 .f32) :
    k0_pay1 (F := Ideal) (k0_pay5 acc) (k0_pay6 acc x0 x4 x5) (k0_pay7 acc x0 x4 x5) (k0_pay8 acc x0 x4 x5)
      = shapeCast S1x128x128
          (mulf
            (multiReduction (F := Ideal) .add [1] S128x128
              (shapeCast S128x16x128 (catV acc x0 x4 x5) shapeCasts_S2048x128_S128x16x128)
              0x00000000#32 reduces_S128x16x128_S128x128 (.inl rfl) rfl)
            (broadcast S128x128 (Scalar.ofBits (F := Ideal) .f32 0x3D800000#32)))
          shapeCasts_S128x128_S1x128x128 := rfl

/-- THE STORED BLOCK AT `(0, q, l)`: the block's result at query `q`, lane `l`. -/
theorem pay1_apply [Cert.KernelIdeal.Facts] (acc : Vec Ideal S2048x128 .f32) (x0 : Vec Ideal S1x128x3 .f32) (x4 : Vec Ideal S4x64 .f32)
    (x5 : Vec Ideal S64 .f32) (q l : Fin 128) :
    k0_pay1 (F := Ideal) (k0_pay5 acc) (k0_pay6 acc x0 x4 x5) (k0_pay7 acc x0 x4 x5) (k0_pay8 acc x0 x4 x5) (ix3 (0 : Fin 1) q l)
      = LFA.outB (fun q d => x0 (ix3 (0 : Fin 1) q d))
          (fun q k lane => acc (ix2 (⟨q.val * 16 + k.val, by omega⟩ : Fin 2048) lane)) x4 x5 q l := by
  rw [pay1_eq]
  refine (shapeCast_ab_1ab_apply _ _ (0 : Fin 1) q l).trans ?_
  rw [mulf_apply, sum16_apply, broadcast_apply]
  show (∑ k : Fin 16, _) * LFA.sixteenth = LFA.outB (P x0) (G acc) x4 x5 q l
  unfold LFA.outB
  refine congrArg (· * LFA.sixteenth) (Finset.sum_congr rfl fun k _ => ?_)
  refine (shapeCast_apply _ _ (ix3 q k l)
    (ix2 (⟨q.val * 16 + k.val, by have := q.isLt; have := k.isLt; omega⟩ : Fin 2048) l) ?_).trans
    (catV_apply acc x0 x4 x5 q k l _ rfl)
  rw [Shape.rowMajor_val_two, Shape.rowMajor_val_three]
  rfl

end Cert.KernelIdeal.PayOut

end
-- ==== Proof.KernelHost.lean ====
/-
  The two tables the kernel's region finds, as values over the extended reals.

  Before its region the kernel's program puts the points `[4, 16384, 3]` and the features `[4, 16384, 64]` side by
  side along the lane axis, pads the 67 lanes to 128 with the zero word converted to a float, and narrows the result
  to bf16: the HIGH table. It widens the high table back, subtracts it from the padded array and narrows again: the
  LOW table. At the ideal reading narrowing and widening are the identity, so the high table is the padded array,
  `LFA.table` index by index, and the low table is `x - x` lane by lane: zero wherever the inputs are reals.
-/
import proofs.«404029_j65532611002531_3_alg».proof.Proof.Gen.KernelIdeal.Frame
import proofs.«404029_j65532611002531_3_alg».proof.Proof.Spec
import Idealize.ShloMosaic.Lib.StableHlo.Run
import Idealize.ShloMosaic.Lib.KernelVsHost
import Idealize.ShloMosaic.Lib.Pipeline.Value

set_option maxRecDepth 16384

noncomputable section

namespace Cert.KernelIdeal.HostTables

open Idealize.ShloMosaic Idealize.ShloMosaic.TcCoe Idealize.ShloMosaic.ValueIdx Idealize.SL.Sem Cert.KernelIdeal Cert.KernelIdeal.Gen

variable [Cert.KernelIdeal.Facts] (m : (ℓ : Loc nD τ sig) → Buf (Elt Ideal) ℓ)

/-- The padded table in f32: points and features side by side, padded on the lane axis with the converted zero word. -/
def padded (P : FVec Ideal S4x16384x3 .f32) (Ft : FVec Ideal S4x16384x64 .f32) : FVec Ideal S4x16384x128 .f32 :=
  pad S4x16384x128 ![0, 0, 0] ![0, 0, 61] ![0, 0, 0]
    (concatenate S4x16384x67 2 [⟨S4x16384x3, P⟩, ⟨S4x16384x64, Ft⟩] concatenates_S4x16384x3_S4x16384x64_S4x16384x67_d2)
    (sitofp (F := Ideal) .f32 (constantI S_ 32 0#32)) pads_S4x16384x67_S4x16384x128_000_000_0610 h_S_

/-- The high table: the padded table narrowed to bf16. -/
def hiT (P : FVec Ideal S4x16384x3 .f32) (Ft : FVec Ideal S4x16384x64 .f32) : FVec Ideal S4x16384x128 .bf16 :=
  truncf .bf16 (padded P Ft) bitsLt_bf16_f32

/-- The low table: what narrowing lost, narrowed again. -/
def loT (P : FVec Ideal S4x16384x3 .f32) (Ft : FVec Ideal S4x16384x64 .f32) : FVec Ideal S4x16384x128 .bf16 :=
  truncf .bf16 (subf (padded P Ft) (extf .f32 (hiT P Ft) bitsLt_bf16_f32)) bitsLt_bf16_f32

theorem V_hi_term (c : Dev nD) :
    V (F := Ideal) m c main_v2 = hiT (m ((c : Thread nD τ).loc main_arg0)) (m ((c : Thread nD τ).loc main_arg1)) := by
  dsimp only [Gen.V]
  simp only [hostOps0, hostOps0_1, hostOps0_2, List.flatten_cons, List.flatten_nil, List.append_nil, List.cons_append, List.nil_append]
  after_results
  rfl

theorem V_lo_term (c : Dev nD) :
    V (F := Ideal) m c main_v5 = loT (m ((c : Thread nD τ).loc main_arg0)) (m ((c : Thread nD τ).loc main_arg1)) := by
  dsimp only [Gen.V]
  simp only [hostOps0, hostOps0_1, hostOps0_2, List.flatten_cons, List.flatten_nil, List.append_nil, List.cons_append, List.nil_append]
  after_results
  rfl

/-- The concatenation at a lane below 3 is the point's coordinate. -/
theorem cat_apply_lt (P : S4x16384x3.Idx → EReal) (Ft : S4x16384x64.Idx → EReal) (b : Fin 4) (n : Fin 16384) (l : Fin 67)
    (h : l.val < 3) :
    concatenate S4x16384x67 2 [⟨S4x16384x3, P⟩, ⟨S4x16384x64, Ft⟩] concatenates_S4x16384x3_S4x16384x64_S4x16384x67_d2 (ix3 b n l)
      = P (ix3 b n ⟨l.val, h⟩) := by
  refine concatenate_pair_apply_left (2 : Fin 3) P Ft _ (ix3 b n l) rfl (ix3 b n ⟨l.val, h⟩) ?_
  intro d
  match d with
  | ⟨0, _⟩ => rfl
  | ⟨1, _⟩ => rfl
  | ⟨2, _⟩ => rfl

/-- The concatenation at a lane from 3 on is the feature three lanes below. -/
theorem cat_apply_ge (P : S4x16384x3.Idx → EReal) (Ft : S4x16384x64.Idx → EReal) (b : Fin 4) (n : Fin 16384) (l : Fin 67)
    (h : ¬ l.val < 3) :
    concatenate S4x16384x67 2 [⟨S4x16384x3, P⟩, ⟨S4x16384x64, Ft⟩] concatenates_S4x16384x3_S4x16384x64_S4x16384x67_d2 (ix3 b n l)
      = Ft (ix3 b n ⟨l.val - 3, by omega⟩) := by
  refine concatenate_pair_apply_right (2 : Fin 3) P Ft _ (ix3 b n l) rfl rfl (ix3 b n ⟨l.val - 3, by omega⟩) ?_ ?_
  · intro d hd
    match d, hd with
    | ⟨0, _⟩, _ => rfl
    | ⟨1, _⟩, _ => rfl
    | ⟨2, _⟩, hd => exact absurd rfl hd
  · show l.val - 3 + 3 = l.val
    omega

/-- The padding value: the zero word converted is the real zero. -/
theorem padval : (sitofp (F := Ideal) .f32 (constantI S_ 32 0#32) : FVec Ideal S_ .f32) (Shape.Idx.first h_S_) = (0 : EReal) := by
  show (((0#32 : BitVec 32).toInt : ℝ) : EReal) = 0
  simp

/-- The padded table, index by index. -/
theorem padded_apply (P : S4x16384x3.Idx → EReal) (Ft : S4x16384x64.Idx → EReal) (b : Fin 4) (n : Fin 16384) (l : Fin 128) :
    padded P Ft (ix3 b n l) = LFA.table P Ft (ix3 b n l) := by
  unfold padded LFA.table
  by_cases h67 : l.val < 67
  · rw [pad_apply_of_inside _ _ _ _ _ _ _ (ix3 b n l) (ix3 b n (⟨l.val, h67⟩ : Fin 67)) (by
      intro d
      match d with
      | ⟨0, _⟩ => show b.val = 0 + b.val * (0 + 1); omega
      | ⟨1, _⟩ => show n.val = 0 + n.val * (0 + 1); omega
      | ⟨2, _⟩ => show l.val = 0 + l.val * (0 + 1); omega)]
    by_cases h3 : l.val < 3
    · rw [cat_apply_lt P Ft b n ⟨l.val, h67⟩ h3]
      show _ = dite _ _ _
      rw [dif_pos h3]
    · rw [cat_apply_ge P Ft b n ⟨l.val, h67⟩ h3]
      show _ = dite _ _ _
      rw [dif_neg h3, dif_pos h67]
  · rw [pad_apply_of_not_inside _ _ _ _ _ _ _ (ix3 b n l) (2 : Fin 3) (by
      show ¬ (0 ≤ l.val ∧ (l.val - 0) % (0 + 1) = 0 ∧ (l.val - 0) / (0 + 1) < 67)
      omega)]
    rw [padval]
    have h3 : ¬ l.val < 3 := by omega
    show _ = dite _ _ _
    rw [dif_neg h3, dif_neg h67]

/-- The high table is the gather table. -/
theorem hiT_eq (P : S4x16384x3.Idx → EReal) (Ft : S4x16384x64.Idx → EReal) :
    (hiT P Ft : S4x16384x128.Idx → EReal) = LFA.table P Ft := by
  funext j
  rw [eq_ix3 j]
  exact padded_apply P Ft (j 0) (j 1) (j 2)

/-- The gather table holds reals where the points and the features do. -/
theorem table_real (P : S4x16384x3.Idx → EReal) (Ft : S4x16384x64.Idx → EReal)
    (hP : ∀ j, ∃ x : ℝ, P j = (x : EReal)) (hF : ∀ j, ∃ x : ℝ, Ft j = (x : EReal)) (j : S4x16384x128.Idx) :
    ∃ x : ℝ, LFA.table P Ft j = (x : EReal) := by
  unfold LFA.table
  by_cases h3 : (j 2).val < 3
  · rw [dif_pos h3]; exact hP _
  · rw [dif_neg h3]
    by_cases h67 : (j 2).val < 67
    · rw [dif_pos h67]; exact hF _
    · rw [dif_neg h67]; exact ⟨0, EReal.coe_zero.symm⟩

/-- The low table vanishes where the table holds reals: a real less itself. -/
theorem loT_eq (P : S4x16384x3.Idx → EReal) (Ft : S4x16384x64.Idx → EReal)
    (hP : ∀ j, ∃ x : ℝ, P j = (x : EReal)) (hF : ∀ j, ∃ x : ℝ, Ft j = (x : EReal)) :
    (loT P Ft : S4x16384x128.Idx → EReal) = fun _ => (0 : EReal) := by
  funext j
  show padded P Ft j - padded P Ft j = 0
  have e : padded P Ft j = LFA.table P Ft j := congrFun (hiT_eq P Ft) j
  obtain ⟨x, hx⟩ := table_real P Ft hP hF j
  rw [e, hx, ← EReal.coe_sub, sub_self, EReal.coe_zero]

theorem V_hi (c : Dev nD) :
    (V (F := Ideal) m c main_v2 : S4x16384x128.Idx → EReal)
      = LFA.table (m ((c : Thread nD τ).loc main_arg0)) (m ((c : Thread nD τ).loc main_arg1)) :=
  (V_hi_term m c).trans (hiT_eq _ _)

theorem V_lo (c : Dev nD)
    (hP : ∀ j, ∃ x : ℝ, (m ((c : Thread nD τ).loc main_arg0) : S4x16384x3.Idx → EReal) j = (x : EReal))
    (hF : ∀ j, ∃ x : ℝ, (m ((c : Thread nD τ).loc main_arg1) : S4x16384x64.Idx → EReal) j = (x : EReal)) :
    (V (F := Ideal) m c main_v5 : S4x16384x128.Idx → EReal) = fun _ => (0 : EReal) :=
  (V_lo_term m c).trans (loT_eq _ _ hP hF)

end Cert.KernelIdeal.HostTables

end
-- ==== Proof.SpecBlock.lean ====
/-
  The block form of the specification is the specification: when the block's queries are the points `n q` of batch `b`
  and the gathered rows are the gather table's rows at the neighbours' indices, the block's result at query `q` is the
  result at point `n q`. Lanes 0–2 of a table row are the neighbour's position and lanes 3–66 its features, so the
  relative position and the gathered features read the same entries on both sides.
-/
import proofs.«404029_j65532611002531_3_alg».proof.Proof.Spec

noncomputable section

open scoped BigOperators

namespace LFA

open Idealize.ShloMosaic Idealize.ShloMosaic.ValueIdx

/-- A table row's lane `d < 3` is the point's coordinate `d`. -/
theorem table_point (P : SP.Idx → EReal) (Ft : SF.Idx → EReal) (b : Fin 4) (r : Fin 16384) (d : Fin 3) :
    table P Ft (ix3 b r (⟨d.val, by omega⟩ : Fin 128)) = P (ix3 b r d) := by
  unfold table
  have h : ((ix3 b r (⟨d.val, by omega⟩ : Fin 128) : SO.Idx) 2).val < 3 := d.isLt
  rw [dif_pos h]

/-- A table row's lane `3 + f`, `f < 64`, is the point's feature `f`. -/
theorem table_feature (P : SP.Idx → EReal) (Ft : SF.Idx → EReal) (b : Fin 4) (r : Fin 16384) (l : Fin 128) (h64 : ¬ l.val < 64) :
    table P Ft (ix3 b r (⟨l.val - 64 + 3, by omega⟩ : Fin 128)) = Ft (ix3 b r (⟨l.val - 64, by omega⟩ : Fin 64)) := by
  unfold table
  have hl := l.isLt
  have h1 : ¬ ((ix3 b r (⟨l.val - 64 + 3, by omega⟩ : Fin 128) : SO.Idx) 2).val < 3 := by
    show ¬ (l.val - 64 + 3 < 3); omega
  have h2 : ((ix3 b r (⟨l.val - 64 + 3, by omega⟩ : Fin 128) : SO.Idx) 2).val < 67 := by
    show l.val - 64 + 3 < 67; omega
  rw [dif_neg h1, dif_pos h2]
  refine congrArg Ft ?_
  funext a
  match a with
  | ⟨0, _⟩ => rfl
  | ⟨1, _⟩ => rfl
  | ⟨2, _⟩ => exact Fin.ext (by show l.val - 64 + 3 - 3 = l.val - 64; omega)

section
variable (P : SP.Idx → EReal) (Ft : SF.Idx → EReal) (I : SI.Idx → BitVec 32) (W : SW.Idx → EReal) (B : SB.Idx → EReal)
  (b : Fin 4) (n : Fin 128 → Fin 16384)
  (p : Fin 128 → Fin 3 → EReal) (g : Fin 128 → Fin 16 → Fin 128 → EReal)
  (hp : ∀ q d, p q d = P (ix3 b (n q) d))
  (hg : ∀ q k lane, g q k lane = table P Ft (ix3 b (row I b (n q) k) lane))

include hp hg

theorem relB_eq (q : Fin 128) (k : Fin 16) (d : Fin 3) : relB p g q k d = rel P I b (n q) k d := by
  unfold relB rel
  rw [hp, hg, table_point]

theorem distB_eq (q : Fin 128) (k : Fin 16) : distB p g q k = dist P I b (n q) k := by
  unfold distB dist
  simp only [relB_eq P Ft I b n p g hp hg]

theorem geoB_eq (q : Fin 128) (k : Fin 16) (c : Fin 4) : geoB p g q k c = geo P I b (n q) k c := by
  unfold geoB geo
  split
  · exact relB_eq P Ft I b n p g hp hg q k _
  · exact distB_eq P Ft I b n p g hp hg q k

theorem preB_eq (q : Fin 128) (k : Fin 16) (f : Fin 64) : preB p g W B q k f = pre P I W B b (n q) k f := by
  unfold preB pre
  simp only [geoB_eq P Ft I b n p g hp hg]

theorem catB_eq (q : Fin 128) (k : Fin 16) (l : Fin 128) : catB p g W B q k l = cat P Ft I W B b (n q) k l := by
  unfold catB cat
  split
  · rw [preB_eq P Ft I W B b n p g hp hg]
  · rename_i h
    rw [hg, table_feature P Ft b _ l h]

/-- THE BLOCK'S RESULT is the result at the block's points. -/
theorem outB_eq (q : Fin 128) (l : Fin 128) : outB p g W B q l = out P Ft I W B (ix3 b (n q) l) := by
  unfold outB out
  simp only [catB_eq P Ft I W B b n p g hp hg]

end

/-- An index word in `[0, 16384)` (read signed) is the word of the row it names. -/
theorem word_eq_ofNat_rowOf (w : BitVec 32) (h0 : 0 ≤ w.toInt) (h1 : w.toInt < 16384) :
    w = BitVec.ofNat 32 (rowOf w).val := by
  unfold rowOf
  show w = BitVec.ofNat 32 (min w.toInt.toNat 16383)
  have hmin : min w.toInt.toNat 16383 = w.toInt.toNat := by omega
  rw [hmin]
  apply BitVec.eq_of_toNat_eq
  rw [BitVec.toNat_ofNat]
  have hw := w.isLt
  have : w.toInt = (w.toNat : Int) := by
    rw [BitVec.toInt_eq_toNat_cond] at h0 ⊢
    split
    · rfl
    · rename_i hh
      rw [if_neg hh] at h0
      omega
  rw [this, Int.toNat_natCast]
  exact (Nat.mod_eq_of_lt hw).symm

end LFA

end
-- ==== Proof.KernelValue.lean ====
/-
  The kernel program's result array as the specification of its argument arrays.

  Grid point t = (b, i) of the 4 × 128 grid works on batch b and on the 128 query points i·128 … i·128 + 127: its
  position block and index block are those rows of batch b, its two table blocks are the whole tables of batch b, the
  weight and bias blocks are the whole arrays, and it writes rows i·128 … of batch b of the result. The body's result
  for the block is the block form of the specification over the rows the loop gathered; with the high table the
  gather table of the arguments and the low table zero (finite arguments), and the index words in range, that is the
  specification read through the block. The 512 blocks tile the result array.
-/
import proofs.«404029_j65532611002531_3_alg».proof.Proof.Gen.KernelIdeal.Value
import proofs.«404029_j65532611002531_3_alg».proof.Proof.LoopGather
import proofs.«404029_j65532611002531_3_alg».proof.Proof.KernelPayOut
import proofs.«404029_j65532611002531_3_alg».proof.Proof.KernelHost
import proofs.«404029_j65532611002531_3_alg».proof.Proof.SpecBlock

set_option maxRecDepth 16384

noncomputable section

namespace Cert.KernelIdeal.KValue

open Cert.KernelIdeal Cert.KernelIdeal.Gen Cert.KernelIdeal.Value Cert.KernelIdeal.LoopValue Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The five argument arrays on core `c`. -/
abbrev aP (c : Dev nD) : S4x16384x3.Idx → EReal := m ((c : Thread nD τ).loc main_arg0)
abbrev aF (c : Dev nD) : S4x16384x64.Idx → EReal := m ((c : Thread nD τ).loc main_arg1)
abbrev aI (c : Dev nD) : S4x16384x16.Idx → BitVec 32 := m ((c : Thread nD τ).loc main_arg2)
abbrev aW (c : Dev nD) : S4x64.Idx → EReal := m ((c : Thread nD τ).loc main_arg3)
abbrev aB (c : Dev nD) : S64.Idx → EReal := m ((c : Thread nD τ).loc main_arg4)

/-- The specification of core `c`'s arguments. -/
abbrev spec (c : Dev nD) : S4x16384x128.Idx → EReal := LFA.out (aP m c) (aF m c) (aI m c) (aW m c) (aB m c)

/-- The point's input blocks, at their literal types. -/
abbrev xP (c : Dev nD) (t : Fin cfg0.N) : Vec Ideal S1x128x3 .f32 := iblk m c 0 t
abbrev xHi (c : Dev nD) (t : Fin cfg0.N) : Vec Ideal S1x16384x128 .bf16 := iblk m c 1 t
abbrev xLo (c : Dev nD) (t : Fin cfg0.N) : Vec Ideal S1x16384x128 .bf16 := iblk m c 2 t
abbrev xI (c : Dev nD) (t : Fin cfg0.N) : Vec Ideal S1x128x16 .i32 := iblk m c 3 t
abbrev xW (c : Dev nD) (t : Fin cfg0.N) : Vec Ideal S4x64 .f32 := iblk m c 4 t
abbrev xB (c : Dev nD) (t : Fin cfg0.N) : Vec Ideal S64 .f32 := iblk m c 5 t

/-- The printed index maps over the grid: the batch and query-block coordinates of every window, all below their bounds. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 3) = win0_6.index t (0 : Fin 3) ∧ win0_2.index t (1 : Fin 3) = 0 ∧ win0_2.index t (2 : Fin 3) = 0
    ∧ win0_3.index t (0 : Fin 3) = win0_6.index t (0 : Fin 3) ∧ win0_3.index t (1 : Fin 3) = win0_6.index t (1 : Fin 3) ∧ win0_3.index t (2 : Fin 3) = 0
    ∧ win0_4.index t (0 : Fin 2) = 0 ∧ win0_4.index t (1 : Fin 2) = 0
    ∧ win0_5.index t (0 : Fin 1) = 0
    ∧ win0_6.index t (0 : Fin 3) < 4 ∧ win0_6.index t (1 : Fin 3) < 128 ∧ win0_6.index t (2 : Fin 3) = 0 :=
  (by decide +kernel : ∀ t : Fin grid0.N, _)

/-- Point `t` of the 4 × 128 grid is batch `t / 128`, query block `t % 128`. -/
theorem idx_pos : ∀ t : Fin cfg0.N, win0_6.index t (0 : Fin 3) = t.val / 128 ∧ win0_6.index t (1 : Fin 3) = t.val % 128 :=
  (by decide +kernel : ∀ t : Fin grid0.N, win0_6.index t (0 : Fin 3) = t.val / 128 ∧ win0_6.index t (1 : Fin 3) = t.val % 128)

/-- Every (batch, query block) is some point's. -/
theorem idx_onto (b : Fin 4) (i : Fin 128) : ∃ t : Fin cfg0.N, win0_6.index t (0 : Fin 3) = b.val ∧ win0_6.index t (1 : Fin 3) = i.val := by
  have hN : cfg0.N = 512 := N_0
  have hb := b.isLt
  have hi := i.isLt
  refine ⟨⟨b.val * 128 + i.val, by rw [hN]; omega⟩, ?_⟩
  obtain ⟨e0, e1⟩ := idx_pos ⟨b.val * 128 + i.val, by rw [hN]; omega⟩
  rw [e0, e1]
  constructor
  · show (b.val * 128 + i.val) / 128 = b.val; omega
  · show (b.val * 128 + i.val) % 128 = i.val; omega

/-- The batch of point `t`, and the point of the arrays its query `q` is. -/
def bOf (t : Fin cfg0.N) : Fin 4 := ⟨win0_6.index t (0 : Fin 3), (idx_facts t).2.2.2.2.2.2.2.2.2.2.2.2.2.2.2.1⟩
def nOf (t : Fin cfg0.N) (q : Fin 128) : Fin 16384 :=
  ⟨win0_6.index t (1 : Fin 3) * 128 + q.val, by have := (idx_facts t).2.2.2.2.2.2.2.2.2.2.2.2.2.2.2.2.1; have := q.isLt; omega⟩

/-! ## The blocks read at an index -/

theorem xP_apply (c : Dev nD) (t : Fin cfg0.N) (q : Fin 128) (d : Fin 3) :
    xP m c t (ix3 (0 : Fin 1) q d) = aP m c (ix3 (bOf t) (nOf t q) d) := by
  obtain ⟨e0, e1, e2, -⟩ := idx_facts t
  show V m c main_arg0 (((cfg0.win 0).blk t).view.emb (ix3 (0 : Fin 1) q d)) = _
  refine (congrFun (V_main_arg0 m c) _).trans (congrArg _ ?_)
  funext a; apply Fin.ext
  match a with
  | ⟨0, _⟩ => show win0_0.index t (0 : Fin 3) * 1 + 1 * 0 = win0_6.index t (0 : Fin 3); omega
  | ⟨1, _⟩ => show win0_0.index t (1 : Fin 3) * 128 + 1 * q.val = win0_6.index t (1 : Fin 3) * 128 + q.val; omega
  | ⟨2, _⟩ => show win0_0.index t (2 : Fin 3) * 3 + 1 * d.val = d.val; omega

theorem xI_apply (c : Dev nD) (t : Fin cfg0.N) (q : Fin 128) (s : Fin 16) :
    xI m c t (ix3 (0 : Fin 1) q s) = aI m c (ix3 (bOf t) (nOf t q) s) := by
  obtain ⟨-, -, -, -, -, -, -, -, -, e0, e1, e2, -⟩ := idx_facts t
  show V m c main_arg2 (((cfg0.win 3).blk t).view.emb (ix3 (0 : Fin 1) q s)) = _
  refine (congrFun (V_main_arg2 m c) _).trans (congrArg _ ?_)
  funext a; apply Fin.ext
  match a with
  | ⟨0, _⟩ => show win0_3.index t (0 : Fin 3) * 1 + 1 * 0 = win0_6.index t (0 : Fin 3); omega
  | ⟨1, _⟩ => show win0_3.index t (1 : Fin 3) * 128 + 1 * q.val = win0_6.index t (1 : Fin 3) * 128 + q.val; omega
  | ⟨2, _⟩ => show win0_3.index t (2 : Fin 3) * 16 + 1 * s.val = s.val; omega

theorem xW_eq (c : Dev nD) (t : Fin cfg0.N) : xW m c t = aW m c := by
  obtain ⟨-, -, -, -, -, -, -, -, -, -, -, -, e0, e1, -⟩ := idx_facts t
  funext y
  show V m c main_arg3 (((cfg0.win 4).blk t).view.emb y) = _
  refine (congrFun (V_main_arg3 m c) _).trans (congrArg _ ?_)
  funext a; apply Fin.ext
  match a with
  | ⟨0, _⟩ => show win0_4.index t (0 : Fin 2) * 4 + 1 * (y 0).val = (y 0).val; omega
  | ⟨1, _⟩ => show win0_4.index t (1 : Fin 2) * 64 + 1 * (y 1).val = (y 1).val; omega

theorem xB_eq (c : Dev nD) (t : Fin cfg0.N) : xB m c t = aB m c := by
  obtain ⟨-, -, -, -, -, -, -, -, -, -, -, -, -, -, e0, -⟩ := idx_facts t
  funext y
  show V m c main_arg4 (((cfg0.win 5).blk t).view.emb y) = _
  refine (congrFun (V_main_arg4 m c) _).trans (congrArg _ ?_)
  funext a; apply Fin.ext
  match a with
  | ⟨0, _⟩ => show win0_5.index t (0 : Fin 1) * 64 + 1 * (y 0).val = (y 0).val; omega

theorem xHi_apply (c : Dev nD) (t : Fin cfg0.N) (r : Fin 16384) (l : Fin 128) :
    xHi m c t (ix3 (0 : Fin 1) r l) = LFA.table (aP m c) (aF m c) (ix3 (bOf t) r l) := by
  obtain ⟨-, -, -, e0, e1, e2, -⟩ := idx_facts t
  show V m c main_v2 (((cfg0.win 1).blk t).view.emb (ix3 (0 : Fin 1) r l)) = _
  refine (congrFun (Cert.KernelIdeal.HostTables.V_hi m c) _).trans (congrArg _ ?_)
  funext a; apply Fin.ext
  match a with
  | ⟨0, _⟩ => show win0_1.index t (0 : Fin 3) * 1 + 1 * 0 = win0_6.index t (0 : Fin 3); omega
  | ⟨1, _⟩ => show win0_1.index t (1 : Fin 3) * 16384 + 1 * r.val = r.val; omega
  | ⟨2, _⟩ => show win0_1.index t (2 : Fin 3) * 128 + 1 * l.val = l.val; omega

theorem xLo_apply (c : Dev nD) (t : Fin cfg0.N)
    (hP : ∀ j, ∃ x : ℝ, aP m c j = (x : EReal)) (hF : ∀ j, ∃ x : ℝ, aF m c j = (x : EReal)) (y : S1x16384x128.Idx) :
    xLo m c t y = 0 := by
  show V m c main_v5 (((cfg0.win 2).blk t).view.emb y) = _
  exact congrFun (Cert.KernelIdeal.HostTables.V_lo m c hP hF) _

/-! ## What a point writes back -/

/-- WHAT POINT `t` WRITES BACK is its block of the specification. -/
theorem flushed_eq (c : Dev nD) (hP : ∀ j, ∃ x : ℝ, aP m c j = (x : EReal)) (hF : ∀ j, ∃ x : ℝ, aF m c j = (x : EReal))
    (hI0 : ∀ j, 0 ≤ (aI m c j).toInt) (hI1 : ∀ j, (aI m c j).toInt < 16384) (t : Fin cfg0.N) :
    (dats m 0 c).flushed 6 t = ((cfg0.win 6).blk t).view.read (Elt Ideal) (spec m c) := by
  rw [flushed6_A, out_eq]
  obtain ⟨-, -, -, -, -, -, -, -, -, -, -, -, -, -, -, -, -, e2⟩ := idx_facts t
  funext j
  obtain ⟨z, q, l, rfl⟩ : ∃ (z : Fin 1) (q l : Fin 128), j = ix3 z q l := ⟨j 0, j 1, j 2, eq_ix3 j⟩
  obtain rfl : z = 0 := Subsingleton.elim _ _
  show k0_pay1 (F := Ideal) (k0_pay5 (accEnd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (xHi m c t) (xLo m c t) (xI m c t)))
      (k0_pay6 (accEnd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (xHi m c t) (xLo m c t) (xI m c t)) (xP m c t) (xW m c t) (xB m c t))
      (k0_pay7 (accEnd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (xHi m c t) (xLo m c t) (xI m c t)) (xP m c t) (xW m c t) (xB m c t))
      (k0_pay8 (accEnd c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (xHi m c t) (xLo m c t) (xI m c t)) (xP m c t) (xW m c t) (xB m c t))
      (ix3 (0 : Fin 1) q l)
    = spec m c (((cfg0.win 6).blk t).view.emb (ix3 (0 : Fin 1) q l))
  rw [Cert.KernelIdeal.PayOut.pay1_apply, xW_eq, xB_eq]
  have hemb : ((cfg0.win 6).blk t).view.emb (ix3 (0 : Fin 1) q l) = ix3 (bOf t) (nOf t q) l := by
    funext a; apply Fin.ext
    match a with
    | ⟨0, _⟩ => show win0_6.index t (0 : Fin 3) * 1 + 1 * 0 = win0_6.index t (0 : Fin 3); omega
    | ⟨1, _⟩ => show win0_6.index t (1 : Fin 3) * 128 + 1 * q.val = win0_6.index t (1 : Fin 3) * 128 + q.val; omega
    | ⟨2, _⟩ => show win0_6.index t (2 : Fin 3) * 128 + 1 * l.val = l.val; omega
  rw [hemb]
  refine LFA.outB_eq (aP m c) (aF m c) (aI m c) (aW m c) (aB m c) (bOf t) (nOf t) _ _ (fun q d => xP_apply m c t q d) (fun q k lane => ?_) q l
  have hr : xI m c t (ix3 (0 : Fin 1) q k) = BitVec.ofNat 32 (LFA.row (aI m c) (bOf t) (nOf t q) k).val := by
    rw [xI_apply]
    exact LFA.word_eq_ofNat_rowOf _ (hI0 _) (hI1 _)
  rw [Cert.KernelIdeal.LoopGather.accEnd_gather c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (xHi m c t) (xLo m c t) (xI m c t)
    (fun y => xLo_apply m c t hP hF y) q k lane _ hr, xHi_apply]

/-! ## The array after the run -/

/-- An index of the result array is in point `t`'s block iff each coordinate is in the block's range on its axis. -/
theorem mem_blk (t : Fin cfg0.N) (i : S4x16384x128.Idx) :
    i ∈ ((cfg0.win 6).blk t).view.set ↔ ∀ a : Fin 3, win0_6.index t a * S1x128x128.size a ≤ (i a).val ∧ (i a).val < win0_6.index t a * S1x128x128.size a + S1x128x128.size a := by
  show i ∈ ((View.whole main_v6).slice (win0_6.rect t)).set ↔ _
  rw [View.set_slice_whole, Rect.mem_set_unit]
  exact Iff.rfl

/-- THE RESULT ARRAY after the run is the specification. -/
theorem final (c : Dev nD) (hP : ∀ j, ∃ x : ℝ, aP m c j = (x : EReal)) (hF : ∀ j, ∃ x : ℝ, aF m c j = (x : EReal))
    (hI0 : ∀ j, 0 ≤ (aI m c j).toInt) (hI1 : ∀ j, (aI m c j).toInt < 16384) :
    (dats m 0 c).arrAt 6 cfg0.N = spec m c :=
  (dats m 0 c).arrAt_eq_of_cover 6 (spec m c) (fun t _ => flushed_eq m c hP hF hI0 hI1 t) fun i => by
    have h0 : (i 0).val < 4 := (i 0).isLt
    have h1 : (i 1).val < 16384 := (i 1).isLt
    have h2 : (i 2).val < 128 := (i 2).isLt
    obtain ⟨t, ht0, ht1⟩ := idx_onto ⟨(i 0).val, h0⟩ ⟨(i 1).val / 128, by omega⟩
    have ht2 := (idx_facts t).2.2.2.2.2.2.2.2.2.2.2.2.2.2.2.2.2
    refine ⟨t, flush0_6 t, ?_⟩
    rw [mem_blk]
    intro a
    match a with
    | ⟨0, _⟩ => show win0_6.index t (0 : Fin 3) * 1 ≤ (i 0).val ∧ (i 0).val < win0_6.index t (0 : Fin 3) * 1 + 1; simp only [ht0]; omega
    | ⟨1, _⟩ => show win0_6.index t (1 : Fin 3) * 128 ≤ (i 1).val ∧ (i 1).val < win0_6.index t (1 : Fin 3) * 128 + 128; simp only [ht1]; omega
    | ⟨2, _⟩ => show win0_6.index t (2 : Fin 3) * 128 ≤ (i 2).val ∧ (i 2).val < win0_6.index t (2 : Fin 3) * 128 + 128; omega

/-- THE RUN: the result array at the specification of the arguments, the arguments unchanged. -/
theorem run (hP : ∀ c j, ∃ x : ℝ, aP m c j = (x : EReal)) (hF : ∀ c j, ∃ x : ℝ, aF m c j = (x : EReal))
    (hI0 : ∀ c j, 0 ≤ (aI m c j).toInt) (hI1 : ∀ c j, (aI m c j).toInt < 16384) :
    θ_run defs (onTc (τ := τ) (main (F := Ideal))) ⟨m, fun _ => 0, ρ⟩ fun r => ∀ c : Dev nD,
      r.2.mem ((c : Thread nD τ).loc main_v6) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hP c) (hF c) (hI0 c) (hI1 c)), (h c).2⟩)
    (run_blocks m ρ)

end Cert.KernelIdeal.KValue

end
-- ==== Proof.RefTerm.lean ====
/-
  The reference program's result as one pure term of its five argument arrays: the operations of its @main (and of
  the functions it calls: the norm, the leaky rectifier and the select inside it), composed in program order.
-/
import proofs.«404029_j65532611002531_3_alg».proof.ReferenceIdeal
import Idealize.ShloMosaic.PureOps.Ideal

noncomputable section

namespace Cert.ReferenceIdeal.RefValue

open Idealize.ShloMosaic Cert.ReferenceIdeal Cert.ReferenceIdeal.Facts₀

variable [Facts]

/-- The start-index column of both gathers: a negative index word is wrapped by 16384, then the array gets a unit axis. -/
def startIdx (I : IVec S4x16384x16 32) : IVec S4x16384x16x1 32 :=
  let z : IVec S4x16384x16 32 := broadcastInDim S4x16384x16 ![] bcast_S_S4x16384x16 (constantI S_ 32 0#32)
  let lt : IVec S4x16384x16 1 := cmpi .slt I z
  let bN : IVec S4x16384x16 32 := broadcastInDim S4x16384x16 ![] bcast_S_S4x16384x16 (constantI S_ 32 16384#32)
  let ad : IVec S4x16384x16 32 := addi I bN
  let sel : IVec S4x16384x16 32 := select lt ad I
  broadcastInDim S4x16384x16x1 ![0, 1, 2] bcast_S4x16384x16_S4x16384x16x1_0_1_2 sel

/-- The query's position minus its neighbour's, `[4, 16384, 16, 3]`. -/
def relT (P : FVec Ideal S4x16384x3 .f32) (I : IVec S4x16384x16 32) : FVec Ideal S4x16384x16x3 .f32 :=
  let g : FVec Ideal S4x16384x16x3 .f32 := Host.gather gather_S4x16384x3_S4x16384x16x1_S4x16384x16x3_3_1_0_0_1_3_113 P (startIdx I)
  let p1 : FVec Ideal S4x16384x1x3 .f32 := broadcastInDim S4x16384x1x3 ![0, 1, 3] bcast_S4x16384x3_S4x16384x1x3_0_1_3 P
  let p2 : FVec Ideal S4x16384x16x3 .f32 := broadcastInDim S4x16384x16x3 ![0, 1, 2, 3] bcast_S4x16384x1x3_S4x16384x16x3_0_1_2_3 p1
  subf p2 g

/-- The norm of the relative position, `[4, 16384, 16, 1]`. -/
def normT (r : FVec Ideal S4x16384x16x3 .f32) : FVec Ideal S4x16384x16x1 .f32 :=
  let sq : FVec Ideal S4x16384x16x3 .f32 := mulf r r
  let s : FVec Ideal S4x16384x16 .f32 := Host.reduceAdd sq (constant (F := Ideal) S_ .f32 0x00000000#32) reducesTo_S4x16384x16x3_S4x16384x16_d3 h_S_
  let s1 : FVec Ideal S4x16384x16x1 .f32 := broadcastInDim S4x16384x16x1 ![0, 1, 2] bcast_S4x16384x16_S4x16384x16x1_0_1_2 s
  Host.sqrt s1

/-- The linear layer on the four geometric features, `[4, 16384, 16, 64]`. -/
def preT (P : FVec Ideal S4x16384x3 .f32) (I : IVec S4x16384x16 32) (W : FVec Ideal S4x64 .f32) (B : FVec Ideal S64 .f32) :
    FVec Ideal S4x16384x16x64 .f32 :=
  let r : FVec Ideal S4x16384x16x3 .f32 := relT P I
  let g4 : FVec Ideal S4x16384x16x4 .f32 :=
    concatenate S4x16384x16x4 3 [⟨S4x16384x16x3, r⟩, ⟨S4x16384x16x1, normT r⟩] concatenates_S4x16384x16x3_S4x16384x16x1_S4x16384x16x4_d3
  let d : FVec Ideal S4x16384x16x64 .f32 := Host.dotGeneral (F := Ideal) dot_S4x16384x16x4_S4x64_S4x16384x16x64_3_0_012_1_n_n none g4 W
  let b1 : FVec Ideal S1x1x1x64 .f32 := broadcastInDim S1x1x1x64 ![3] bcast_S64_S1x1x1x64_3 B
  let b2 : FVec Ideal S4x16384x16x64 .f32 := broadcastInDim S4x16384x16x64 ![0, 1, 2, 3] bcast_S1x1x1x64_S4x16384x16x64_0_1_2_3 b1
  addf d b2

/-- The leaky rectifier as the reference spells it: `x` where `x ≥ 0`, else the slope times `x`. -/
def leakyT (x : FVec Ideal S4x16384x16x64 .f32) : FVec Ideal S4x16384x16x64 .f32 :=
  let z : FVec Ideal S4x16384x16x64 .f32 := broadcastInDim S4x16384x16x64 ![] bcast_S_S4x16384x16x64 (constant (F := Ideal) S_ .f32 0x00000000#32)
  let ge : IVec S4x16384x16x64 1 := cmpf .oge x z
  let sl : FVec Ideal S4x16384x16x64 .f32 := broadcastInDim S4x16384x16x64 ![] bcast_S_S4x16384x16x64 (id (constant (F := Ideal) S_ .f32 0x3E4CCCCD#32))
  let ml : FVec Ideal S4x16384x16x64 .f32 := mulf sl x
  select ge x ml

/-- THE REFERENCE'S RESULT as a term of its arguments. -/
def refTerm (P : FVec Ideal S4x16384x3 .f32) (Ft : FVec Ideal S4x16384x64 .f32) (I : IVec S4x16384x16 32)
    (W : FVec Ideal S4x64 .f32) (B : FVec Ideal S64 .f32) : FVec Ideal S4x16384x128 .f32 :=
  let act : FVec Ideal S4x16384x16x64 .f32 := leakyT (preT P I W B)
  let gf : FVec Ideal S4x16384x16x64 .f32 := Host.gather gather_S4x16384x64_S4x16384x16x1_S4x16384x16x64_3_1_0_0_1_3_1164 Ft (startIdx I)
  let ct : FVec Ideal S4x16384x16x128 .f32 :=
    concatenate S4x16384x16x128 3 [⟨S4x16384x16x64, act⟩, ⟨S4x16384x16x64, gf⟩] concatenates_S4x16384x16x64_S4x16384x16x64_S4x16384x16x128_d3
  let sm : FVec Ideal S4x16384x128 .f32 := Host.reduceAdd ct (constant (F := Ideal) S_ .f32 0x00000000#32) reducesTo_S4x16384x16x128_S4x16384x128_d2 h_S_
  let sx : FVec Ideal S4x16384x128 .f32 := broadcastInDim S4x16384x128 ![] bcast_S_S4x16384x128 (constant (F := Ideal) S_ .f32 0x41800000#32)
  Host.divf sm sx

end Cert.ReferenceIdeal.RefValue

end
-- ==== Proof.RefRun.lean ====
/-
  The reference program's run. Its @main is a straight line of forty-five host operations once the three
  functions it calls are unfolded at their calls: the norm of the relative position (five operations), and the leaky
  rectifier (six operations, then the select of the function it calls in turn). The run of such a line ends with every
  buffer at the fold of the operations' results over the launch contents; read at the result buffer, the fold is the
  composed term `refTerm` of the five argument arrays, and no operation writes an argument.
-/
import proofs.«404029_j65532611002531_3_alg».proof.Proof.Gen.ReferenceIdeal
import proofs.«404029_j65532611002531_3_alg».proof.Proof.RefTerm
import Idealize.ShloMosaic.Lib.StableHlo.Run

noncomputable section

namespace Cert.ReferenceIdeal.RefValue

open Idealize.ShloMosaic Idealize.ShloMosaic.TcCoe Idealize.SL.Sem Idealize.ShloMosaic.StableHlo
open Cert.ReferenceIdeal Cert.ReferenceIdeal.Facts₀

variable {F : FTy → Type} [FloatOps F] [Facts]

/-- @main's forty-five operations in order, the calls unfolded: the start-index column (eight operations), the
    neighbour's position gathered and subtracted from the query's (four), the norm's five into the first call's
    buffers, the four geometric features and the linear layer with its bias (five), the slope, the rectifier's seven
    into the second call's buffers, the start-index column again (eight), the neighbour's features gathered and
    joined to the activations (two), the sum over the sixteen slots and its division by sixteen (five). -/
abbrev ops : List (HloOp τ sig (Elt F)) :=
  [ nullary main_c (constantI S_ 32 0#32),
    unary main_c main_v0 (broadcastInDim S4x16384x16 ![] bcast_S_S4x16384x16 : (⟨S_, .i32⟩ : BufTy).Contents (Elt F) → (⟨S4x16384x16, .i32⟩ : BufTy).Contents (Elt F)),
    binary main_arg2 main_v0 main_v1 (cmpi .slt : (⟨S4x16384x16, .i32⟩ : BufTy).Contents (Elt F) → (⟨S4x16384x16, .i32⟩ : BufTy).Contents (Elt F) → (⟨S4x16384x16, .i1⟩ : BufTy).Contents (Elt F)),
    nullary main_c_0 (constantI S_ 32 16384#32),
    unary main_c_0 main_v2 (broadcastInDim S4x16384x16 ![] bcast_S_S4x16384x16 : (⟨S_, .i32⟩ : BufTy).Contents (Elt F) → (⟨S4x16384x16, .i32⟩ : BufTy).Contents (Elt F)),
    binary main_arg2 main_v2 main_v3 (addi : (⟨S4x16384x16, .i32⟩ : BufTy).Contents (Elt F) → (⟨S4x16384x16, .i32⟩ : BufTy).Contents (Elt F) → (⟨S4x16384x16, .i32⟩ : BufTy).Contents (Elt F)),
    ternary main_v1 main_v3 main_arg2 main_v4 (select : (⟨S4x16384x16, .i1⟩ : BufTy).Contents (Elt F) → (⟨S4x16384x16, .i32⟩ : BufTy).Contents (Elt F) → (⟨S4x16384x16, .i32⟩ : BufTy).Contents (Elt F) → (⟨S4x16384x16, .i32⟩ : BufTy).Contents (Elt F)),
    unary main_v4 main_v5 (broadcastInDim S4x16384x16x1 ![0, 1, 2] bcast_S4x16384x16_S4x16384x16x1_0_1_2 : (⟨S4x16384x16, .i32⟩ : BufTy).Contents (Elt F) → (⟨S4x16384x16x1, .i32⟩ : BufTy).Contents (Elt F)),
    binary main_arg0 main_v5 main_v6 ((fun x i => Host.gather gather_S4x16384x3_S4x16384x16x1_S4x16384x16x3_3_1_0_0_1_3_113 x i) : (⟨S4x16384x3, .f32⟩ : BufTy).Contents (Elt F) → (⟨S4x16384x16x1, .i32⟩ : BufTy).Contents (Elt F) → (⟨S4x16384x16x3, .f32⟩ : BufTy).Contents (Elt F)),
    unary main_arg0 main_v7 (broadcastInDim S4x16384x1x3 ![0, 1, 3] bcast_S4x16384x3_S4x16384x1x3_0_1_3 : (⟨S4x16384x3, .f32⟩ : BufTy).Contents (Elt F) → (⟨S4x16384x1x3, .f32⟩ : BufTy).Contents (Elt F)),
    unary main_v7 main_v8 (broadcastInDim S4x16384x16x3 ![0, 1, 2, 3] bcast_S4x16384x1x3_S4x16384x16x3_0_1_2_3 : (⟨S4x16384x1x3, .f32⟩ : BufTy).Contents (Elt F) → (⟨S4x16384x16x3, .f32⟩ : BufTy).Contents (Elt F)),
    binary main_v8 main_v6 main_v9 (subf : (⟨S4x16384x16x3, .f32⟩ : BufTy).Contents (Elt F) → (⟨S4x16384x16x3, .f32⟩ : BufTy).Contents (Elt F) → (⟨S4x16384x16x3, .f32⟩ : BufTy).Contents (Elt F)),
    TRef.binary (.of main_v9) (.of main_v9) main_call0.v0 mulf,
    TRef.nullary main_call0.cst (constant S_ .f32 0x00000000#32),
    TRef.binary main_call0.v0 main_call0.cst main_call0.v1 (fun x v => Host.reduceAdd x v reducesTo_S4x16384x16x3_S4x16384x16_d3 h_S_),
    TRef.unary main_call0.v1 main_call0.v2 (broadcastInDim S4x16384x16x1 ![0, 1, 2] bcast_S4x16384x16_S4x16384x16x1_0_1_2),
    TRef.unary main_call0.v2 main_call0.v3 Host.sqrt,
    binary main_v9 main_v10 main_v11 ((fun a b => concatenate S4x16384x16x4 3 [⟨S4x16384x16x3, a⟩, ⟨S4x16384x16x1, b⟩] concatenates_S4x16384x16x3_S4x16384x16x1_S4x16384x16x4_d3) : (⟨S4x16384x16x3, .f32⟩ : BufTy).Contents (Elt F) → (⟨S4x16384x16x1, .f32⟩ : BufTy).Contents (Elt F) → (⟨S4x16384x16x4, .f32⟩ : BufTy).Contents (Elt F)),
    binary main_v11 main_arg3 main_v12 ((fun l r => Host.dotGeneral dot_S4x16384x16x4_S4x64_S4x16384x16x64_3_0_012_1_n_n none l r) : (⟨S4x16384x16x4, .f32⟩ : BufTy).Contents (Elt F) → (⟨S4x64, .f32⟩ : BufTy).Contents (Elt F) → (⟨S4x16384x16x64, .f32⟩ : BufTy).Contents (Elt F)),
    unary main_arg4 main_v13 (broadcastInDim S1x1x1x64 ![3] bcast_S64_S1x1x1x64_3 : (⟨S64, .f32⟩ : BufTy).Contents (Elt F) → (⟨S1x1x1x64, .f32⟩ : BufTy).Contents (Elt F)),
    unary main_v13 main_v14 (broadcastInDim S4x16384x16x64 ![0, 1, 2, 3] bcast_S1x1x1x64_S4x16384x16x64_0_1_2_3 : (⟨S1x1x1x64, .f32⟩ : BufTy).Contents (Elt F) → (⟨S4x16384x16x64, .f32⟩ : BufTy).Contents (Elt F)),
    binary main_v12 main_v14 main_v15 (addf : (⟨S4x16384x16x64, .f32⟩ : BufTy).Contents (Elt F) → (⟨S4x16384x16x64, .f32⟩ : BufTy).Contents (Elt F) → (⟨S4x16384x16x64, .f32⟩ : BufTy).Contents (Elt F)),
    nullary main_cst (constant S_ .f32 0x3E4CCCCD#32),
    TRef.nullary main_call1.cst (constant S_ .f32 0x00000000#32),
    TRef.unary main_call1.cst main_call1.v0 (broadcastInDim S4x16384x16x64 ![] bcast_S_S4x16384x16x64),
    TRef.binary (.of main_v15) main_call1.v0 main_call1.v1 (cmpf .oge),
    TRef.unary (.of main_cst) main_call1.v2 id,
    TRef.unary main_call1.v2 main_call1.v3 (broadcastInDim S4x16384x16x64 ![] bcast_S_S4x16384x16x64),
    TRef.binary main_call1.v3 (.of main_v15) main_call1.v4 mulf,
    TRef.ternary main_call1.v1 (.of main_v15) main_call1.v4 main_call1.call0.v0 select,
    nullary main_c_1 (constantI S_ 32 0#32),
    unary main_c_1 main_v17 (broadcastInDim S4x16384x16 ![] bcast_S_S4x16384x16 : (⟨S_, .i32⟩ : BufTy).Contents (Elt F) → (⟨S4x16384x16, .i32⟩ : BufTy).Contents (Elt F)),
    binary main_arg2 main_v17 main_v18 (cmpi .slt : (⟨S4x16384x16, .i32⟩ : BufTy).Contents (Elt F) → (⟨S4x16384x16, .i32⟩ : BufTy).Contents (Elt F) → (⟨S4x16384x16, .i1⟩ : BufTy).Contents (Elt F)),
    nullary main_c_2 (constantI S_ 32 16384#32),
    unary main_c_2 main_v19 (broadcastInDim S4x16384x16 ![] bcast_S_S4x16384x16 : (⟨S_, .i32⟩ : BufTy).Contents (Elt F) → (⟨S4x16384x16, .i32⟩ : BufTy).Contents (Elt F)),
    binary main_arg2 main_v19 main_v20 (addi : (⟨S4x16384x16, .i32⟩ : BufTy).Contents (Elt F) → (⟨S4x16384x16, .i32⟩ : BufTy).Contents (Elt F) → (⟨S4x16384x16, .i32⟩ : BufTy).Contents (Elt F)),
    ternary main_v18 main_v20 main_arg2 main_v21 (select : (⟨S4x16384x16, .i1⟩ : BufTy).Contents (Elt F) → (⟨S4x16384x16, .i32⟩ : BufTy).Contents (Elt F) → (⟨S4x16384x16, .i32⟩ : BufTy).Contents (Elt F) → (⟨S4x16384x16, .i32⟩ : BufTy).Contents (Elt F)),
    unary main_v21 main_v22 (broadcastInDim S4x16384x16x1 ![0, 1, 2] bcast_S4x16384x16_S4x16384x16x1_0_1_2 : (⟨S4x16384x16, .i32⟩ : BufTy).Contents (Elt F) → (⟨S4x16384x16x1, .i32⟩ : BufTy).Contents (Elt F)),
    binary main_arg1 main_v22 main_v23 ((fun x i => Host.gather gather_S4x16384x64_S4x16384x16x1_S4x16384x16x64_3_1_0_0_1_3_1164 x i) : (⟨S4x16384x64, .f32⟩ : BufTy).Contents (Elt F) → (⟨S4x16384x16x1, .i32⟩ : BufTy).Contents (Elt F) → (⟨S4x16384x16x64, .f32⟩ : BufTy).Contents (Elt F)),
    binary main_v16 main_v23 main_v24 ((fun a b => concatenate S4x16384x16x128 3 [⟨S4x16384x16x64, a⟩, ⟨S4x16384x16x64, b⟩] concatenates_S4x16384x16x64_S4x16384x16x64_S4x16384x16x128_d3) : (⟨S4x16384x16x64, .f32⟩ : BufTy).Contents (Elt F) → (⟨S4x16384x16x64, .f32⟩ : BufTy).Contents (Elt F) → (⟨S4x16384x16x128, .f32⟩ : BufTy).Contents (Elt F)),
    nullary main_cst_3 (constant S_ .f32 0x00000000#32),
    binary main_v24 main_cst_3 main_v25 ((fun x v => Host.reduceAdd x v reducesTo_S4x16384x16x128_S4x16384x128_d2 h_S_) : (⟨S4x16384x16x128, .f32⟩ : BufTy).Contents (Elt F) → (⟨S_, .f32⟩ : BufTy).Contents (Elt F) → (⟨S4x16384x128, .f32⟩ : BufTy).Contents (Elt F)),
    nullary main_cst_4 (constant S_ .f32 0x41800000#32),
    unary main_cst_4 main_v26 (broadcastInDim S4x16384x128 ![] bcast_S_S4x16384x128 : (⟨S_, .f32⟩ : BufTy).Contents (Elt F) → (⟨S4x16384x128, .f32⟩ : BufTy).Contents (Elt F)),
    binary main_v25 main_v26 main_v27 (Host.divf : (⟨S4x16384x128, .f32⟩ : BufTy).Contents (Elt F) → (⟨S4x16384x128, .f32⟩ : BufTy).Contents (Elt F) → (⟨S4x16384x128, .f32⟩ : BufTy).Contents (Elt F)) ]

-- forty-five sequencing steps re-associated, one nested inside the other: a deep term
set_option maxRecDepth 4096 in
/-- @main is that straight line: the three functions' bodies unfolded at their calls, sequencing re-associated. -/
theorem main_eq (c : Dev nD) : main (F := F) c = seq ops := by
  simp only [main, fn_norm.body, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub ..⟩

/-- The run as a fold: every weakly fair execution of @main terminates with each buffer at the fold of the
    operations' results over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

-- forty-five operations, and each buffer read is carried back through every later operation: a long computation
set_option maxHeartbeats 4000000 in
/-- The fold read at the result buffer is the composed term: each operation's result at its own buffer is its
    function's value, at any other buffer what was there; what is left is the operations composed in program order,
    which is `refTerm` by unfolding (the typed references' transports are the identity at literal references). -/
theorem out_eq (V : Valuation τ sig (Elt Ideal)) :
    after (ops (F := Ideal)) V (Proc.devRef .tc main_v27)
      = refTerm (V (Proc.devRef .tc main_arg0)) (V (Proc.devRef .tc main_arg1)) (V (Proc.devRef .tc main_arg2)) (V (Proc.devRef .tc main_arg3)) (V (Proc.devRef .tc main_arg4)) := by
  after_results
  rfl

/-- No operation of the line writes argument 0. -/
theorem arg0_eq (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    simp only [List.Forall, nullary_writes, unary_writes, binary_writes, ternary_writes, Finset.mem_singleton]
    repeat' apply And.intro
    all_goals exact devRef_ne_of_ne (by decide)))

/-- No operation of the line writes argument 1. -/
theorem arg1_eq (V : Valuation τ sig (Elt F)) :
    after (ops (F := F)) V (Proc.devRef .tc main_arg1) = V (Proc.devRef .tc main_arg1) :=
  after_of_forall_not_mem (b := Proc.devRef .tc main_arg1) _ _ (List.forall_iff_forall_mem.mp (by
    simp only [List.Forall, nullary_writes, unary_writes, binary_writes, ternary_writes, Finset.mem_singleton]
    repeat' apply And.intro
    all_goals exact devRef_ne_of_ne (by decide)))

/-- No operation of the line writes argument 2. -/
theorem arg2_eq (V : Valuation τ sig (Elt F)) :
    after (ops (F := F)) V (Proc.devRef .tc main_arg2) = V (Proc.devRef .tc main_arg2) :=
  after_of_forall_not_mem (b := Proc.devRef .tc main_arg2) _ _ (List.forall_iff_forall_mem.mp (by
    simp only [List.Forall, nullary_writes, unary_writes, binary_writes, ternary_writes, Finset.mem_singleton]
    repeat' apply And.intro
    all_goals exact devRef_ne_of_ne (by decide)))

/-- No operation of the line writes argument 3. -/
theorem arg3_eq (V : Valuation τ sig (Elt F)) :
    after (ops (F := F)) V (Proc.devRef .tc main_arg3) = V (Proc.devRef .tc main_arg3) :=
  after_of_forall_not_mem (b := Proc.devRef .tc main_arg3) _ _ (List.forall_iff_forall_mem.mp (by
    simp only [List.Forall, nullary_writes, unary_writes, binary_writes, ternary_writes, Finset.mem_singleton]
    repeat' apply And.intro
    all_goals exact devRef_ne_of_ne (by decide)))

/-- No operation of the line writes argument 4. -/
theorem arg4_eq (V : Valuation τ sig (Elt F)) :
    after (ops (F := F)) V (Proc.devRef .tc main_arg4) = V (Proc.devRef .tc main_arg4) :=
  after_of_forall_not_mem (b := Proc.devRef .tc main_arg4) _ _ (List.forall_iff_forall_mem.mp (by
    simp only [List.Forall, nullary_writes, unary_writes, binary_writes, ternary_writes, Finset.mem_singleton]
    repeat' apply And.intro
    all_goals exact devRef_ne_of_ne (by decide)))

/-- THE REFERENCE'S RUN: from any memory with zero counters every weakly fair execution of @main terminates with the
    result buffer at `refTerm` of the five arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v27)
          = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v27).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_fold m ρ)

end Cert.ReferenceIdeal.RefValue

end
-- ==== Proof.RefValue.lean ====
/-
  The reference program's term is the specification. Each operation of the term is read at an index, outermost
  first: the quotient by sixteen, the sum over the sixteen neighbour slots, the concatenation of the rectified linear
  layer with the gathered features, the rectifier, the bias, the contraction with the weight matrix, the
  concatenation of the relative position with its norm, the norm, the difference, and the two batched row gathers
  with their start-index column. The only hypothesis used is that no neighbour index is negative: then the wrap by
  16384 is never taken, and the gather's clamp into [0, 16383] is the specification's.
-/
import proofs.«404029_j65532611002531_3_alg».proof.Proof.RefTerm
import proofs.«404029_j65532611002531_3_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefSpec

open Idealize.ShloMosaic Idealize.ShloMosaic.ValueIdx Cert.ReferenceIdeal Cert.ReferenceIdeal.Facts₀
open Cert.ReferenceIdeal.RefValue

/-! ## The batched row gather read at an index

Operand `[4, 16384, C]`, start indices `[4, 16384, 16, 1]`, result `[4, 16384, 16, C]`: axis 0 of the operand is a
batching axis paired with axis 0 of the start indices, axis 1 is the indexed (and collapsed) axis, axis 2 is the one
offset axis. Result element `(b, n, k, c)` is the operand at `(b, r, c)`, where `r` is the start word at
`(b, n, k, 0)` read signed and clamped into `[0, 16383]`. -/

section Gather
variable {α : Type}

/-- Those dimension numbers, for any lane count `C`. -/
abbrev rowDims (C : Nat)
    (wf : GatherDims.WF ⟨3, ![4, 16384, C]⟩ ⟨4, ![4, 16384, 16, 1]⟩ ⟨4, ![4, 16384, 16, C]⟩ [3] [1] [0] [1] [0] 3 ![1, 1, C]) :
    GatherDims ⟨3, ![4, 16384, C]⟩ ⟨4, ![4, 16384, 16, 1]⟩ ⟨4, ![4, 16384, 16, C]⟩ where
  offsetDims := [3]
  collapsedSliceDims := [1]
  operandBatchingDims := [0]
  startIndicesBatchingDims := [0]
  startIndexMap := [1]
  indexVectorDim := 3
  sliceSizes := ![1, 1, C]
  wf := wf

variable {C w : Nat}
  (wf : GatherDims.WF ⟨3, ![4, 16384, C]⟩ ⟨4, ![4, 16384, 16, 1]⟩ ⟨4, ![4, 16384, 16, C]⟩ [3] [1] [0] [1] [0] 3 ![1, 1, C])
  (idx : IVec ⟨4, ![4, 16384, 16, 1]⟩ w) (b : Fin 4) (n : Fin 16384) (k : Fin 16) (c : Fin C)

/-- Operand axis 0 (the batching axis) reads the batch coordinate. -/
theorem rowDims_axis0 :
    (rowDims C wf).start (ix4 b n k c) idx (0 : Fin 3) + (rowDims C wf).batchCoord (ix4 b n k c) (0 : Fin 3)
      + (rowDims C wf).offCoord (ix4 b n k c) (0 : Fin 3) = b.val := by
  have h0 : (0 : Fin 3) ∈ (rowDims C wf).operandBatchingDims := show (0 : Fin 3) ∈ [(0 : Fin 3)] from List.mem_singleton.mpr rfl
  rw [GatherDims.start_batching _ _ _ _ h0,
    GatherDims.offCoord_eq_zero _ _ _ (fun h => ((GatherDims.mem_sKept _ _).mp h).2 h0), Nat.zero_add, Nat.add_zero]
  rfl

/-- The start-indices index that result index `(b, n, k, c)` reads its one start component at. -/
theorem rowDims_siIdx (h1 : (1 : Fin 3) ∈ (rowDims C wf).startIndexMap) :
    (rowDims C wf).siIdx (ix4 b n k c) ⟨List.idxOf (1 : Fin 3) (rowDims C wf).startIndexMap, List.idxOf_lt_length_iff.2 h1⟩
      = ix4 b n k (0 : Fin 1) := by
  funext e; refine Fin.ext ?_
  match e with
  | ⟨0, _⟩ => rfl
  | ⟨1, _⟩ => rfl
  | ⟨2, _⟩ => rfl
  | ⟨3, _⟩ => rfl

/-- Operand axis 1 (the indexed axis) reads the clamped start word. -/
theorem rowDims_axis1 :
    (rowDims C wf).start (ix4 b n k c) idx (1 : Fin 3) + (rowDims C wf).batchCoord (ix4 b n k c) (1 : Fin 3)
      + (rowDims C wf).offCoord (ix4 b n k c) (1 : Fin 3) = min (idx (ix4 b n k (0 : Fin 1))).toInt.toNat 16383 := by
  have h1 : (1 : Fin 3) ∈ (rowDims C wf).startIndexMap := show (1 : Fin 3) ∈ [(1 : Fin 3)] from List.mem_singleton.mpr rfl
  have hc : (1 : Fin 3) ∈ (rowDims C wf).collapsedSliceDims := show (1 : Fin 3) ∈ [(1 : Fin 3)] from List.mem_singleton.mpr rfl
  have hb : (1 : Fin 3) ∉ (rowDims C wf).operandBatchingDims := show (1 : Fin 3) ∉ [(0 : Fin 3)] from by decide
  rw [GatherDims.batchCoord_eq_zero _ _ _ hb,
    GatherDims.offCoord_eq_zero _ _ _ (fun h => ((GatherDims.mem_sKept _ _).mp h).1 hc), Nat.add_zero]
  unfold GatherDims.start
  rw [dif_pos h1, rowDims_siIdx wf b n k c h1]
  rfl

/-- Operand axis 2 (the offset axis) reads the lane coordinate. -/
theorem rowDims_axis2 :
    (rowDims C wf).start (ix4 b n k c) idx (2 : Fin 3) + (rowDims C wf).batchCoord (ix4 b n k c) (2 : Fin 3)
      + (rowDims C wf).offCoord (ix4 b n k c) (2 : Fin 3) = c.val := by
  have hb : (2 : Fin 3) ∉ (rowDims C wf).operandBatchingDims := show (2 : Fin 3) ∉ [(0 : Fin 3)] from by decide
  have hm : (2 : Fin 3) ∉ (rowDims C wf).startIndexMap := show (2 : Fin 3) ∉ [(1 : Fin 3)] from by decide
  rw [GatherDims.batchCoord_eq_zero _ _ _ hb, Nat.add_zero]
  unfold GatherDims.start
  rw [dif_neg hm, Nat.zero_add]
  rfl

/-- THE GATHER AT `(b, n, k, c)`. -/
theorem gather_row_apply (x : (⟨3, ![4, 16384, C]⟩ : Shape).Idx → α) :
    Host.gather (rowDims C wf) x idx (ix4 b n k c)
      = x (ix3 b ⟨min (idx (ix4 b n k (0 : Fin 1))).toInt.toNat 16383, by omega⟩ c) := by
  unfold Host.gather
  congr 1
  funext a
  refine Fin.ext ?_
  show (rowDims C wf).start (ix4 b n k c) idx a + (rowDims C wf).batchCoord (ix4 b n k c) a
    + (rowDims C wf).offCoord (ix4 b n k c) a = _
  match a with
  | ⟨0, _⟩ => exact rowDims_axis0 wf idx b n k c
  | ⟨1, _⟩ => exact rowDims_axis1 wf idx b n k c
  | ⟨2, _⟩ => exact rowDims_axis2 wf idx b n k c

end Gather

/-! ## The start-index column

A neighbour index that is not negative is passed on unchanged; the unit axis added for the gather carries no
information. -/

/-- A signed compare "below zero" of a word that is not negative answers no. -/
theorem slt_zero_of_nonneg (v : BitVec 32) (h : 0 ≤ v.toInt) : IntOp.cmpi .slt v 0#32 = 0#1 := by
  have hs : v.slt 0#32 = false := by
    rw [BitVec.slt]
    have h0 : (0#32 : BitVec 32).toInt = 0 := by decide
    rw [h0]
    exact decide_eq_false (not_lt.mpr h)
  show BitVec.ofBool (v.slt 0#32) = 0#1
  rw [hs]; rfl

/-- The unit axis added to `[4, 16384, 16]` forgets nothing. -/
theorem addUnit_apply {α : Type} (h : S4x16384x16.BroadcastsInDim S4x16384x16x1 (![0, 1, 2] : Fin 3 → Fin S4x16384x16x1.rank))
    (x : S4x16384x16.Idx → α) (b : Fin 4) (n : Fin 16384) (k : Fin 16) (z : Fin 1) :
    broadcastInDim S4x16384x16x1 ![0, 1, 2] h x (ix4 b n k z) = x (ix3 b n k) := by
  unfold broadcastInDim
  congr 1
  funext a; refine Fin.ext ?_
  match a with
  | ⟨0, _⟩ => rfl
  | ⟨1, _⟩ => rfl
  | ⟨2, _⟩ => rfl

variable [Facts]

/-- The start index at `(b, n, k, 0)` is the neighbour index word at `(b, n, k)`, when that word is not negative. -/
theorem startIdx_apply (I : IVec S4x16384x16 32) (b : Fin 4) (n : Fin 16384) (k : Fin 16) (z : Fin 1)
    (h0 : 0 ≤ (I (ix3 b n k)).toInt) : startIdx I (ix4 b n k z) = I (ix3 b n k) := by
  unfold startIdx
  rw [addUnit_apply]
  show Scalar.select (IntOp.cmpi .slt (I (ix3 b n k)) 0#32) _ (I (ix3 b n k)) = _
  rw [slt_zero_of_nonneg _ h0, select_zero]

/-! ## The two gathers of the program -/

/-- The gathered positions: the neighbour's row of `P`. -/
theorem gatherP_apply (P : FVec Ideal S4x16384x3 .f32) (I : IVec S4x16384x16 32) (hlo : ∀ j, 0 ≤ (I j).toInt)
    (b : Fin 4) (n : Fin 16384) (k : Fin 16) (d : Fin 3) :
    Host.gather gather_S4x16384x3_S4x16384x16x1_S4x16384x16x3_3_1_0_0_1_3_113 P (startIdx I) (ix4 b n k d)
      = P (ix3 b (LFA.row I b n k) d) := by
  refine (gather_row_apply (C := 3) gather_S4x16384x3_S4x16384x16x1_S4x16384x16x3_3_1_0_0_1_3_113_wf (startIdx I) b n k d P).trans ?_
  congr 1
  funext a; refine Fin.ext ?_
  match a with
  | ⟨0, _⟩ => rfl
  | ⟨1, _⟩ =>
    show min (startIdx I (ix4 b n k (0 : Fin 1))).toInt.toNat 16383 = min (I (ix3 b n k)).toInt.toNat 16383
    rw [startIdx_apply I b n k 0 (hlo _)]
  | ⟨2, _⟩ => rfl

/-- The gathered features: the neighbour's row of `Ft`. -/
theorem gatherF_apply (Ft : FVec Ideal S4x16384x64 .f32) (I : IVec S4x16384x16 32) (hlo : ∀ j, 0 ≤ (I j).toInt)
    (b : Fin 4) (n : Fin 16384) (k : Fin 16) (f : Fin 64) :
    Host.gather gather_S4x16384x64_S4x16384x16x1_S4x16384x16x64_3_1_0_0_1_3_1164 Ft (startIdx I) (ix4 b n k f)
      = Ft (ix3 b (LFA.row I b n k) f) := by
  refine (gather_row_apply (C := 64) gather_S4x16384x64_S4x16384x16x1_S4x16384x16x64_3_1_0_0_1_3_1164_wf (startIdx I) b n k f Ft).trans ?_
  congr 1
  funext a; refine Fin.ext ?_
  match a with
  | ⟨0, _⟩ => rfl
  | ⟨1, _⟩ =>
    show min (startIdx I (ix4 b n k (0 : Fin 1))).toInt.toNat 16383 = min (I (ix3 b n k)).toInt.toNat 16383
    rw [startIdx_apply I b n k 0 (hlo _)]
  | ⟨2, _⟩ => rfl

/-! ## The relative position -/

/-- The query's position repeated over the neighbour slots. -/
theorem bcastP_apply (P : FVec Ideal S4x16384x3 .f32) (b : Fin 4) (n : Fin 16384) (k : Fin 16) (d : Fin 3) :
    broadcastInDim S4x16384x16x3 ![0, 1, 2, 3] bcast_S4x16384x1x3_S4x16384x16x3_0_1_2_3
      (broadcastInDim S4x16384x1x3 ![0, 1, 3] bcast_S4x16384x3_S4x16384x1x3_0_1_3 P) (ix4 b n k d) = P (ix3 b n d) := by
  unfold broadcastInDim
  congr 1
  funext a; refine Fin.ext ?_
  match a with
  | ⟨0, _⟩ => rfl
  | ⟨1, _⟩ => rfl
  | ⟨2, _⟩ => rfl

/-- The reference's relative position is the specification's. -/
theorem relT_apply (P : FVec Ideal S4x16384x3 .f32) (I : IVec S4x16384x16 32) (hlo : ∀ j, 0 ≤ (I j).toInt)
    (b : Fin 4) (n : Fin 16384) (k : Fin 16) (d : Fin 3) :
    relT P I (ix4 b n k d) = LFA.rel P I b n k d := by
  unfold relT LFA.rel
  show broadcastInDim S4x16384x16x3 ![0, 1, 2, 3] bcast_S4x16384x1x3_S4x16384x16x3_0_1_2_3
      (broadcastInDim S4x16384x1x3 ![0, 1, 3] bcast_S4x16384x3_S4x16384x1x3_0_1_3 P) (ix4 b n k d)
    - Host.gather gather_S4x16384x3_S4x16384x16x1_S4x16384x16x3_3_1_0_0_1_3_113 P (startIdx I) (ix4 b n k d) = _
  rw [bcastP_apply, gatherP_apply P I hlo]

/-! ## The distance -/

/-- The index the sum over the coordinate axis inserts its coordinate into. -/
theorem lift3_eq (hR : Shape.Reduces S4x16384x16x3 [3] S4x16384x16) (b : Fin 4) (n : Fin 16384) (k : Fin 16) (d : Fin 3) :
    hR.lift (ix3 b n k) d = ix4 b n k d := by
  funext a; refine Fin.ext ?_
  match a with
  | ⟨0, _⟩ => rfl
  | ⟨1, _⟩ => rfl
  | ⟨2, _⟩ => rfl
  | ⟨3, _⟩ => rfl

/-- The host's square root at a point is the extended reals' square root of the element. -/
theorem hostSqrt_apply {s : Shape} (x : FVec Ideal s .f32) (j : s.Idx) : Host.sqrt x j = Ideal.sqrt (x j) := rfl

/-- The host's sum over one axis, started from the zero word, at a point: the sum over that axis's coordinates. -/
theorem hostReduceAdd_zero_apply {s t : Shape} {a : Fin s.rank} (h' : s.ReducesTo [a] t) (hu : 0 < S_.numel)
    (h : s.Reduces [a] t) (x : FVec Ideal s .f32) (j : t.Idx) :
    Host.reduceAdd x (constant (F := Ideal) S_ .f32 0x00000000#32) h' hu j = ∑ k : Fin (s.size a), x (h.lift j k) := by
  show Ideal.hostReduceAdd h' x (Ideal.ofBits .f32 0x00000000#32) j = _
  rw [Ideal.hostReduceAdd_single h' h, Ideal.ofBits_zero_f32, zero_add]

/-- The reference's norm of a `[4, 16384, 16, 3]` array at a point: the root of the sum of the three squares. -/
theorem normT_apply (r : FVec Ideal S4x16384x16x3 .f32) (b : Fin 4) (n : Fin 16384) (k : Fin 16) (z : Fin 1) :
    normT r (ix4 b n k z) = Ideal.sqrt (∑ d : Fin 3, r (ix4 b n k d) * r (ix4 b n k d)) := by
  have hR : Shape.Reduces S4x16384x16x3 [3] S4x16384x16 := by decide
  unfold normT
  show Host.sqrt (broadcastInDim S4x16384x16x1 ![0, 1, 2] bcast_S4x16384x16_S4x16384x16x1_0_1_2
    (Host.reduceAdd (mulf r r) (constant (F := Ideal) S_ .f32 0x00000000#32) reducesTo_S4x16384x16x3_S4x16384x16_d3 h_S_))
    (ix4 b n k z) = _
  rw [hostSqrt_apply, addUnit_apply, hostReduceAdd_zero_apply _ _ hR]
  congr 1
  show ∑ d : Fin 3, mulf r r (hR.lift (ix3 b n k) d) = _
  refine Finset.sum_congr rfl fun d _ => ?_
  rw [lift3_eq hR, mulf_apply]

/-! ## The four geometric features -/

/-- The relative position and the distance side by side, at feature `c`. -/
theorem geoT_apply (r : FVec Ideal S4x16384x16x3 .f32) (b : Fin 4) (n : Fin 16384) (k : Fin 16) (c : Fin 4) :
    concatenate S4x16384x16x4 3 [⟨S4x16384x16x3, r⟩, ⟨S4x16384x16x1, normT r⟩]
        concatenates_S4x16384x16x3_S4x16384x16x1_S4x16384x16x4_d3 (ix4 b n k c)
      = if h : c.val < 3 then r (ix4 b n k ⟨c.val, h⟩) else normT r (ix4 b n k (0 : Fin 1)) := by
  by_cases h : c.val < 3
  · rw [dif_pos h]
    refine concatenate_pair_apply_left (3 : Fin 4) r (normT r) _ (ix4 b n k c) rfl (ix4 b n k ⟨c.val, h⟩) fun a => ?_
    match a with
    | ⟨0, _⟩ => rfl
    | ⟨1, _⟩ => rfl
    | ⟨2, _⟩ => rfl
    | ⟨3, _⟩ => rfl
  · rw [dif_neg h]
    refine concatenate_pair_apply_right (3 : Fin 4) r (normT r) _ (ix4 b n k c) rfl rfl (ix4 b n k (0 : Fin 1)) (fun a ha => ?_) ?_
    · match a with
      | ⟨0, _⟩ => rfl
      | ⟨1, _⟩ => rfl
      | ⟨2, _⟩ => rfl
      | ⟨3, _⟩ => exact absurd rfl ha
    · show 0 + 3 = c.val
      have := c.isLt
      omega

/-! ## The linear layer -/

section Dot

theorem lhs_D464_0 (j : S4x16384x16x64.Idx) (q : (dot_S4x16384x16x4_S4x64_S4x16384x16x64_3_0_012_1_n_n).contr.Idx) :
    ((dot_S4x16384x16x4_S4x64_S4x16384x16x64_3_0_012_1_n_n).lhsIdx j q (0 : Fin 4)).val = (j (0 : Fin 4)).val := rfl
theorem lhs_D464_1 (j : S4x16384x16x64.Idx) (q : (dot_S4x16384x16x4_S4x64_S4x16384x16x64_3_0_012_1_n_n).contr.Idx) :
    ((dot_S4x16384x16x4_S4x64_S4x16384x16x64_3_0_012_1_n_n).lhsIdx j q (1 : Fin 4)).val = (j (1 : Fin 4)).val := rfl
theorem lhs_D464_2 (j : S4x16384x16x64.Idx) (q : (dot_S4x16384x16x4_S4x64_S4x16384x16x64_3_0_012_1_n_n).contr.Idx) :
    ((dot_S4x16384x16x4_S4x64_S4x16384x16x64_3_0_012_1_n_n).lhsIdx j q (2 : Fin 4)).val = (j (2 : Fin 4)).val := rfl
theorem lhs_D464_3 (j : S4x16384x16x64.Idx) (q : (dot_S4x16384x16x4_S4x64_S4x16384x16x64_3_0_012_1_n_n).contr.Idx) :
    ((dot_S4x16384x16x4_S4x64_S4x16384x16x64_3_0_012_1_n_n).lhsIdx j q (3 : Fin 4)).val = (q ⟨0, Nat.one_pos⟩).val :=
  DotDims.lhsIdx_val_of_single _ rfl j q
theorem rhs_D464_0 (j : S4x16384x16x64.Idx) (q : (dot_S4x16384x16x4_S4x64_S4x16384x16x64_3_0_012_1_n_n).contr.Idx) :
    ((dot_S4x16384x16x4_S4x64_S4x16384x16x64_3_0_012_1_n_n).rhsIdx j q (0 : Fin 2)).val = (q ⟨0, Nat.one_pos⟩).val :=
  DotDims.rhsIdx_val_of_single _ rfl j q
theorem rhs_D464_1 (j : S4x16384x16x64.Idx) (q : (dot_S4x16384x16x4_S4x64_S4x16384x16x64_3_0_012_1_n_n).contr.Idx) :
    ((dot_S4x16384x16x4_S4x64_S4x16384x16x64_3_0_012_1_n_n).rhsIdx j q (1 : Fin 2)).val = (j (3 : Fin 4)).val := rfl

/-- The contraction of the four features with the weight matrix, at a point. -/
theorem dot_apply (g4 : FVec Ideal S4x16384x16x4 .f32) (W : FVec Ideal S4x64 .f32)
    (b : Fin 4) (n : Fin 16384) (k : Fin 16) (f : Fin 64) :
    Host.dotGeneral (F := Ideal) dot_S4x16384x16x4_S4x64_S4x16384x16x64_3_0_012_1_n_n none g4 W (ix4 b n k f)
      = ∑ c : Fin 4, g4 (ix4 b n k c) * W (ix2 c f) := by
  show FloatOps.dotGeneral dot_S4x16384x16x4_S4x64_S4x16384x16x64_3_0_012_1_n_n none .single g4 W (ix4 b n k f) = _
  rw [Ideal.dotGeneral_apply,
    ← Equiv.sum_comp (contrEquiv1 dot_S4x16384x16x4_S4x64_S4x16384x16x64_3_0_012_1_n_n 4 rfl rfl).symm]
  refine Finset.sum_congr rfl fun c _ => ?_
  have hk := contrEquiv1_symm_val dot_S4x16384x16x4_S4x64_S4x16384x16x64_3_0_012_1_n_n 4 rfl rfl c
  congr 1
  · congr 1
    funext a; refine Fin.ext ?_
    match a with
    | ⟨0, _⟩ => exact lhs_D464_0 _ _
    | ⟨1, _⟩ => exact lhs_D464_1 _ _
    | ⟨2, _⟩ => exact lhs_D464_2 _ _
    | ⟨3, _⟩ => exact (lhs_D464_3 _ _).trans hk
  · congr 1
    funext a; refine Fin.ext ?_
    match a with
    | ⟨0, _⟩ => exact (rhs_D464_0 _ _).trans hk
    | ⟨1, _⟩ => exact rhs_D464_1 _ _

end Dot

/-- The bias repeated over batch, query and slot. -/
theorem bcastB_apply (B : FVec Ideal S64 .f32) (b : Fin 4) (n : Fin 16384) (k : Fin 16) (f : Fin 64) :
    broadcastInDim S4x16384x16x64 ![0, 1, 2, 3] bcast_S1x1x1x64_S4x16384x16x64_0_1_2_3
      (broadcastInDim S1x1x1x64 ![3] bcast_S64_S1x1x1x64_3 B) (ix4 b n k f) = B (ix1 f) := by
  unfold broadcastInDim
  congr 1
  funext a; refine Fin.ext ?_
  match a with
  | ⟨0, _⟩ => rfl

/-- The reference's linear layer is the specification's. -/
theorem preT_apply (P : FVec Ideal S4x16384x3 .f32) (I : IVec S4x16384x16 32) (W : FVec Ideal S4x64 .f32)
    (B : FVec Ideal S64 .f32) (hlo : ∀ j, 0 ≤ (I j).toInt) (b : Fin 4) (n : Fin 16384) (k : Fin 16) (f : Fin 64) :
    preT P I W B (ix4 b n k f) = LFA.pre P I W B b n k f := by
  unfold preT LFA.pre
  show Host.dotGeneral (F := Ideal) dot_S4x16384x16x4_S4x64_S4x16384x16x64_3_0_012_1_n_n none
        (concatenate S4x16384x16x4 3 [⟨S4x16384x16x3, relT P I⟩, ⟨S4x16384x16x1, normT (relT P I)⟩]
          concatenates_S4x16384x16x3_S4x16384x16x1_S4x16384x16x4_d3) W (ix4 b n k f)
      + broadcastInDim S4x16384x16x64 ![0, 1, 2, 3] bcast_S1x1x1x64_S4x16384x16x64_0_1_2_3
          (broadcastInDim S1x1x1x64 ![3] bcast_S64_S1x1x1x64_3 B) (ix4 b n k f) = _
  rw [dot_apply, bcastB_apply]
  congr 1
  refine Finset.sum_congr rfl fun c _ => ?_
  congr 1
  rw [geoT_apply]
  unfold LFA.geo
  by_cases h : c.val < 3
  · rw [dif_pos h, dif_pos h, relT_apply P I hlo]
  · rw [dif_neg h, dif_neg h, normT_apply]
    unfold LFA.dist
    congr 1
    refine Finset.sum_congr rfl fun d _ => ?_
    rw [relT_apply P I hlo]

/-! ## The leaky rectifier -/

/-- The reference's rectifier (`x` where `x ≥ 0`, else slope times `x`) is the specification's (`x` where `0 < x`, else
    `x` times slope): they differ in wording only at `x = 0`, where both give `0`, and in the order of a product. -/
theorem leakyT_apply (x : FVec Ideal S4x16384x16x64 .f32) (j : S4x16384x16x64.Idx) : leakyT x j = LFA.leaky (x j) := by
  unfold leakyT LFA.leaky
  show Scalar.select (Ideal.cmp .oge (x j) (Ideal.ofBits .f32 0x00000000#32)) (x j) (LFA.slope * x j)
    = if 0 < x j then x j else x j * LFA.slope
  rw [Ideal.ofBits_zero_f32]
  show Scalar.select (BitVec.ofBool (decide ((0 : EReal) ≤ x j))) (x j) (LFA.slope * x j) = _
  by_cases hle : (0 : EReal) ≤ x j
  · rw [decide_eq_true hle]
    show Scalar.select 1#1 (x j) (LFA.slope * x j) = _
    rw [select_one]
    by_cases hlt : 0 < x j
    · rw [if_pos hlt]
    · have h0 : x j = 0 := le_antisymm (not_lt.mp hlt) hle
      rw [if_neg hlt, h0, zero_mul]
  · rw [decide_eq_false hle]
    show Scalar.select 0#1 (x j) (LFA.slope * x j) = _
    rw [select_zero, if_neg (fun h => hle (le_of_lt h)), mul_comm]

/-! ## One neighbour slot's 128 lanes -/

/-- The rectified linear layer and the neighbour's features side by side are the specification's lanes. -/
theorem catT_apply (P : FVec Ideal S4x16384x3 .f32) (Ft : FVec Ideal S4x16384x64 .f32) (I : IVec S4x16384x16 32)
    (W : FVec Ideal S4x64 .f32) (B : FVec Ideal S64 .f32) (hlo : ∀ j, 0 ≤ (I j).toInt)
    (b : Fin 4) (n : Fin 16384) (k : Fin 16) (l : Fin 128) :
    concatenate S4x16384x16x128 3
        [⟨S4x16384x16x64, leakyT (preT P I W B)⟩,
         ⟨S4x16384x16x64, Host.gather gather_S4x16384x64_S4x16384x16x1_S4x16384x16x64_3_1_0_0_1_3_1164 Ft (startIdx I)⟩]
        concatenates_S4x16384x16x64_S4x16384x16x64_S4x16384x16x128_d3 (ix4 b n k l)
      = LFA.cat P Ft I W B b n k l := by
  unfold LFA.cat
  by_cases h : l.val < 64
  · rw [dif_pos h]
    refine (concatenate_pair_apply_left (s₁ := S4x16384x16x64) (s₂ := S4x16384x16x64) (3 : Fin 4) _ _ _ (ix4 b n k l) rfl
      (ix4 b n k (⟨l.val, h⟩ : Fin 64)) fun a => ?_).trans ?_
    · match a with
      | ⟨0, _⟩ => rfl
      | ⟨1, _⟩ => rfl
      | ⟨2, _⟩ => rfl
      | ⟨3, _⟩ => rfl
    · rw [leakyT_apply, preT_apply P I W B hlo]
  · rw [dif_neg h]
    have hl := l.isLt
    refine (concatenate_pair_apply_right (s₁ := S4x16384x16x64) (s₂ := S4x16384x16x64) (3 : Fin 4) _ _ _ (ix4 b n k l) rfl rfl
      (ix4 b n k (⟨l.val - 64, by omega⟩ : Fin 64)) (fun a ha => ?_) ?_).trans ?_
    · match a with
      | ⟨0, _⟩ => rfl
      | ⟨1, _⟩ => rfl
      | ⟨2, _⟩ => rfl
      | ⟨3, _⟩ => exact absurd rfl ha
    · show l.val - 64 + 64 = l.val
      omega
    · exact gatherF_apply Ft I hlo b n k _

/-! ## The mean over the neighbour slots -/

/-- The word `0x41800000` is sixteen. -/
theorem ofBits_sixteen : Ideal.ofBits .f32 0x41800000#32 = ((16 : ℝ) : EReal) := by
  simp [Ideal.ofBits, Ideal.ieee, -EReal.coe_mul]; norm_num

/-- The word `0x3D800000` is one sixteenth. -/
theorem ofBits_sixteenth : Ideal.ofBits .f32 0x3D800000#32 = ((1 / 16 : ℝ) : EReal) := by
  simp [Ideal.ofBits, Ideal.ieee, -EReal.coe_mul]; norm_num

/-- The host's quotient at a point is the ideal quotient of the elements. -/
theorem hostDivf_apply {s : Shape} (x y : FVec Ideal s .f32) (j : s.Idx) : Host.divf x y j = Ideal.div (x j) (y j) := rfl

/-- The index the sum over the slot axis inserts its coordinate into. -/
theorem lift2_eq (hR : Shape.Reduces S4x16384x16x128 [2] S4x16384x128) (b : Fin 4) (n : Fin 16384) (l : Fin 128) (k : Fin 16) :
    hR.lift (ix3 b n l) k = ix4 b n k l := by
  funext a; refine Fin.ext ?_
  match a with
  | ⟨0, _⟩ => rfl
  | ⟨1, _⟩ => rfl
  | ⟨2, _⟩ => rfl
  | ⟨3, _⟩ => rfl

/-- THE REFERENCE'S TERM IS THE SPECIFICATION: for neighbour indices that are not negative (the upper bound is not
    used: both sides clamp), the reference's result is the mean over the neighbour slots of the specification's lanes.
    Division by sixteen is the product with one sixteenth for every extended real, the infinite ones included. -/
theorem refTerm_eq (P : FVec Ideal S4x16384x3 .f32) (Ft : FVec Ideal S4x16384x64 .f32) (I : IVec S4x16384x16 32)
    (W : FVec Ideal S4x64 .f32) (B : FVec Ideal S64 .f32)
    (hlo : ∀ j, 0 ≤ (I j).toInt) (hhi : ∀ j, (I j).toInt < 16384) :
    refTerm P Ft I W B = LFA.out P Ft I W B := by
  have hR : Shape.Reduces S4x16384x16x128 [2] S4x16384x128 := by decide
  funext j
  obtain ⟨b, n, l, rfl⟩ : ∃ (b : Fin 4) (n : Fin 16384) (l : Fin 128), j = ix3 b n l := ⟨j 0, j 1, j 2, eq_ix3 j⟩
  unfold refTerm LFA.out
  show Host.divf
      (Host.reduceAdd
        (concatenate S4x16384x16x128 3
          [⟨S4x16384x16x64, leakyT (preT P I W B)⟩,
           ⟨S4x16384x16x64, Host.gather gather_S4x16384x64_S4x16384x16x1_S4x16384x16x64_3_1_0_0_1_3_1164 Ft (startIdx I)⟩]
          concatenates_S4x16384x16x64_S4x16384x16x64_S4x16384x16x128_d3)
        (constant (F := Ideal) S_ .f32 0x00000000#32) reducesTo_S4x16384x16x128_S4x16384x128_d2 h_S_)
      (broadcastInDim S4x16384x128 ![] bcast_S_S4x16384x128 (constant (F := Ideal) S_ .f32 0x41800000#32)) (ix3 b n l)
    = (∑ k : Fin 16, LFA.cat P Ft I W B b n k l) * LFA.sixteenth
  rw [hostDivf_apply, hostReduceAdd_zero_apply _ _ hR]
  show Ideal.div _ (Ideal.ofBits .f32 0x41800000#32) = _ * Ideal.ofBits .f32 0x3D800000#32
  rw [ofBits_sixteen, ofBits_sixteenth, Ideal.div_coe (by norm_num : (16 : ℝ) ≠ 0)]
  congr 1
  show ∑ k : Fin 16, concatenate S4x16384x16x128 3
          [⟨S4x16384x16x64, leakyT (preT P I W B)⟩,
           ⟨S4x16384x16x64, Host.gather gather_S4x16384x64_S4x16384x16x1_S4x16384x16x64_3_1_0_0_1_3_1164 Ft (startIdx I)⟩]
          concatenates_S4x16384x16x64_S4x16384x16x64_S4x16384x16x128_d3 (hR.lift (ix3 b n l) k) = _
  refine Finset.sum_congr rfl fun k _ => ?_
  rw [lift2_eq hR, catT_apply P Ft I W B hlo]

end Cert.ReferenceIdeal.RefSpec

end
-- ==== Proof.PreDecode.lean ====
/-
  The precondition read back. The printed predicate is the conjunction of six `jnp.all`s: the absolute values of the
  points, of the features, of the weights and of the bias are below +∞, and every neighbour index word, read signed,
  lies in [0, 16384). Each `jnp.all` is a reduction by `and` from 1 over all axes, so its being 1 gives the compared
  bit at every index. At the ideal instance |x| is max x (−x) and the comparison is the order of the extended reals:
  |x| < ⊤ leaves only the real numbers. The index comparisons are signed comparisons of words.
-/
import proofs.«404029_j65532611002531_3_alg».proof.Pre_finite_inputs
import Idealize.ShloMosaic.PureOps.Ideal
import Idealize.ShloMosaic.Lib.ReduceAll
import Idealize.ShloMosaic.Lib.ValueIdx
import Idealize.ShloMosaic.Lib.StableHlo.Predicate

set_option maxRecDepth 16384

noncomputable section

namespace Cert.Pre_finite_inputs.Decode

open Idealize.ShloMosaic Cert.Pre_finite_inputs

/-- The scalar shape has one index. -/
instance : Subsingleton S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (−x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The conjunction of two scalar bits, read at the one index. -/
theorem andi_ix (x y : IVec S_ 1) :
    andi x y ValueIdx.ix0 = 1#1 ↔ x ValueIdx.ix0 = 1#1 ∧ y ValueIdx.ix0 = 1#1 := IntOp.andi_eq_one

/-- One element of the comparison |X| < +∞ (the bound a scalar broadcast): the element is real. -/
theorem real_of_bit {s : Shape} (X : FVec Ideal s .f32) (hb : S_.BroadcastsInDim s (![] : Fin 0 → Fin s.rank)) (j : s.Idx)
    (h : cmpf .olt (Host.absf X) (broadcastInDim s ![] hb (constant (F := Ideal) S_ .f32 0x7F800000#32)) j = 1#1) :
    ∃ r : ℝ, X j = (r : EReal) := by
  have h' : Ideal.cmp .olt (max (X j) (-(X j))) (Ideal.ofBits .f32 0x7F800000#32) = 1#1 := h
  rw [ofBits_inf] at h'
  unfold Ideal.cmp at h'
  rw [StableHlo.Predicate.ofBool_eq_one_iff] at h'
  exact real_of_abs_lt_top _ (of_decide_eq_true h')

theorem decode [Cert.Pre_finite_inputs.Facts] (P : FVec Ideal S4x16384x3 .f32) (Ft : FVec Ideal S4x16384x64 .f32)
    (I : IVec S4x16384x16 32) (W : FVec Ideal S4x64 .f32) (B : FVec Ideal S64 .f32)
    (h : Cert.Pre_finite_inputs.fn (F := Ideal) P Ft I W B = fun _ => 1#1) :
    (∀ j, ∃ x : ℝ, P j = (x : EReal)) ∧ (∀ j, ∃ x : ℝ, Ft j = (x : EReal)) ∧ (∀ j, 0 ≤ (I j).toInt) ∧
      (∀ j, (I j).toInt < 16384) := by
  have e := congrFun h ValueIdx.ix0
  dsimp only [fn, fn_part1] at e
  rw [andi_ix, andi_ix, andi_ix, andi_ix, andi_ix] at e
  obtain ⟨⟨⟨⟨⟨hP, hF⟩, hW⟩, hB⟩, hI0⟩, hI1⟩ := e
  refine ⟨fun j => ?_, fun j => ?_, fun j => ?_, fun j => ?_⟩
  · exact real_of_bit P _ j (Host.reduce_andi_all _ _ _ _ _ hP j)
  · exact real_of_bit Ft _ j (Host.reduce_andi_all _ _ _ _ _ hF j)
  · have b := Host.reduce_andi_all _ _ _ _ _ hI0 j
    have b' : IntOp.cmpi .sge (I j) (0#32) = 1#1 := b
    rw [IntOp.cmpi_sge] at b'
    simpa using b'
  · have b := Host.reduce_andi_all _ _ _ _ _ hI1 j
    have b' : IntOp.cmpi .slt (I j) (16384#32) = 1#1 := b
    rw [IntOp.cmpi_slt] at b'
    have c : (16384#32 : BitVec 32).toInt = 16384 := by decide
    rw [c] at b'
    exact b'

end Cert.Pre_finite_inputs.Decode

end
-- ==== Proof.lean ====
/-
  Neighbourhood feature aggregation on point clouds: for each of 4 × 16384 query points and each of its 16 listed
  neighbours, the relative position and its Euclidean norm go through a 4 → 64 linear layer with bias and a leaky
  rectifier, are concatenated with the neighbour's 64 features, and the 128 lanes are averaged over the 16 neighbours.

  The kernel gathers the neighbours' rows by one-hot matrix products against a 128-lane table (position ‖ features ‖
  zero padding) split into a high and a low part, accumulated over 16 chunks of 1024 rows; over the extended reals the
  high part is the table itself and the low part, a finite number minus itself, is zero, and a one-hot row times the
  table is the table's row at the index when the index lies in [0, 16384). The reference gathers with a clamped
  row gather. Both then compute the same sums; the kernel's final product with one sixteenth is the reference's
  quotient by sixteen. The two programs agree where every index is a valid row number, which the precondition states
  together with the finiteness of the float inputs.
-/
import proofs.«404029_j65532611002531_3_alg».proof.Defs
import proofs.«404029_j65532611002531_3_alg».proof.Proof.Gen.Kernel
import proofs.«404029_j65532611002531_3_alg».proof.Proof.Gen.Kernel.Frame
import proofs.«404029_j65532611002531_3_alg».proof.Proof.Gen.KernelIdeal
import proofs.«404029_j65532611002531_3_alg».proof.Proof.Gen.KernelIdeal.Frame
import proofs.«404029_j65532611002531_3_alg».proof.Proof.Gen.ReferenceIdeal
import proofs.«404029_j65532611002531_3_alg».proof.Proof.Gen.Pre_finite_inputs
import proofs.«404029_j65532611002531_3_alg».proof.Proof.KernelValue
import proofs.«404029_j65532611002531_3_alg».proof.Proof.RefRun
import proofs.«404029_j65532611002531_3_alg».proof.Proof.RefValue
import proofs.«404029_j65532611002531_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments: its run, the result dropped. -/
theorem frame_ri : Cert.frame_ReferenceIdeal := fun m ρ _ =>
  (θ_run Cert.ReferenceIdeal.defs _ _).mono (fun _ h c => (h c).2) (Cert.ReferenceIdeal.RefValue.run m ρ)

/-- Over the extended reals, from arguments that agree, are finite and hold valid row indices, both programs end with
    the specification of those arguments in their result arrays. -/
theorem algebraic : Cert.algebraic_KernelIdeal_ReferenceIdeal := by
  intro m ρ m' ρ' hpre hagree
  have hd := fun c => Cert.Pre_finite_inputs.Decode.decode _ _ _ _ _ (hpre c)
  refine ⟨fun c => Cert.KernelIdeal.KValue.spec m c,
    Cert.KernelIdeal.KValue.run m ρ (fun c => (hd c).1) (fun c => (hd c).2.1) (fun c => (hd c).2.2.1) (fun c => (hd c).2.2.2), ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  exact Cert.ReferenceIdeal.RefSpec.refTerm_eq _ _ _ _ _ (hd c).2.2.1 (hd c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
